-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x10 : Shape := ⟨2, ![4096, 10]⟩
abbrev S1024x4096 : Shape := ⟨2, ![1024, 4096]⟩
abbrev S_ : Shape := ⟨0, ![]⟩

class Facts : Prop where
  bcast_S_S4096x10 : S_.BroadcastsInDim S4096x10 (![] : Fin 0 → Fin S4096x10.rank)
  reducesTo_S4096x10_S_d0_1 : S4096x10.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_

variable [Facts]

def fn_part1 {F : FTy → Type} [FloatOps F] (main_arg3 : IVec S1024x4096 32) (main_v15 : IVec S_ 1) (main_c_5 : IVec S_ 32) : IVec S_ 1 :=
  let main_v16 : IVec S1024x4096 32 := broadcastInDim S1024x4096 ![] bcast_S_S1024x4096 main_c_5
  let main_v17 : IVec S1024x4096 1 := cmpi .sge main_arg3 main_v16
  let main_c_6 : IVec S_ 32 := constantI S_ 32 10#32
  let main_v18 : IVec S1024x4096 32 := broadcastInDim S1024x4096 ![] bcast_S_S1024x4096 main_c_6
  let main_v19 : IVec S1024x4096 1 := cmpi .slt main_arg3 main_v18
  let main_v20 : IVec S1024x4096 1 := andi main_v17 main_v19
  let main_c_7 : IVec S_ 1 := constantI S_ 1 1#1
  let main_v21 : IVec S_ 1 := (fun x v => Host.reduce IntOp.andi x v reducesTo_S1024x4096_S_d0_1 h_S_) main_v20 main_c_7
  let main_v22 : IVec S_ 1 := andi main_v15 main_v21
  main_v22

def fn {F : FTy → Type} [FloatOps F] (main_arg0 : FVec F S4096x10 .f32) (main_arg1 : FVec F S4096x10 .f32) (main_arg2 : IVec S1024x4096 32) (main_arg3 : IVec S1024x4096 32) : IVec S_ 1 :=
  let main_v0 : FVec F S4096x10 .f32 := Host.absf main_arg0
  let main_cst : FVec F S_ .f32 := constant S_ .f32 0x7F800000#32
  let main_v1 : FVec F S4096x10 .f32 := broadcastInDim S4096x10 ![] bcast_S_S4096x10 main_cst
  let main_v2 : IVec S4096x10 1 := cmpf .olt main_v0 main_v1
  let main_c : IVec S_ 1 := constantI S_ 1 1#1
  let main_v3 : IVec S_ 1 := (fun x v => Host.reduce IntOp.andi x v reducesTo_S4096x10_S_d0_1 h_S_) main_v2 main_c
  let main_v4 : FVec F S4096x10 .f32 := Host.absf main_arg1
  let main_cst_0 : FVec F S_ .f32 := constant S_ .f32 0x7F800000#32
  let main_v5 : FVec F S4096x10 .f32 := broadcastInDim S4096x10 ![] bcast_S_S4096x10 main_cst_0
  let main_v6 : IVec S4096x10 1 := cmpf .olt main_v4 main_v5
  let main_c_1 : IVec S_ 1 := constantI S_ 1 1#1
  let main_v7 : IVec S_ 1 := (fun x v => Host.reduce IntOp.andi x v reducesTo_S4096x10_S_d0_1 h_S_) main_v6 main_c_1
  let main_v8 : IVec S_ 1 := andi main_v3 main_v7
  let main_c_2 : IVec S_ 32 := constantI S_ 32 0#32
  let main_v9 : IVec S1024x4096 32 := broadcastInDim S1024x4096 ![] bcast_S_S1024x4096 main_c_2
  let main_v10 : IVec S1024x4096 1 := cmpi .sge main_arg2 main_v9
  let main_c_3 : IVec S_ 32 := constantI S_ 32 10#32
  let main_v11 : IVec S1024x4096 32 := broadcastInDim S1024x4096 ![] bcast_S_S1024x4096 main_c_3
  let main_v12 : IVec S1024x4096 1 := cmpi .slt main_arg2 main_v11
  let main_v13 : IVec S1024x4096 1 := andi main_v10 main_v12
  let main_c_4 : IVec S_ 1 := constantI S_ 1 1#1
  let main_v14 : IVec S_ 1 := (fun x v => Host.reduce IntOp.andi x v reducesTo_S1024x4096_S_d0_1 h_S_) main_v13 main_c_4
  let main_v15 : IVec S_ 1 := andi main_v8 main_v14
  let main_c_5 : IVec S_ 32 := constantI S_ 32 0#32
  fn_part1 (F := F) main_arg3 main_v15 main_c_5
-- ==== Kernel.lean ====
abbrev S4096x10 : Shape := ⟨2, ![4096, 10]⟩
abbrev S1024x4096 : Shape := ⟨2, ![1024, 4096]⟩
abbrev S10x4096 : Shape := ⟨2, ![10, 4096]⟩
abbrev S19x4096 : Shape := ⟨2, ![19, 4096]⟩
abbrev S1024x512 : Shape := ⟨2, ![1024, 512]⟩
abbrev S10x512 : Shape := ⟨2, ![10, 512]⟩
abbrev S19x512 : Shape := ⟨2, ![19, 512]⟩
abbrev S1x512 : Shape := ⟨2, ![1, 512]⟩
abbrev S512 : Shape := ⟨1, ![512]⟩
abbrev S64x512 : Shape := ⟨2, ![64, 512]⟩
abbrev S4096x19 : Shape := ⟨2, ![4096, 19]⟩

abbrev nBuf : Space → Nat
  | .hbm => 8
  | .vmem => 11
  | .smem => 0
  | _ => 0

abbrev bufTy : (tb : Table) → Fin (tcTables nBuf tb) → BufTy
  | .hbm, ⟨0, _⟩ => ⟨S4096x10, .f32⟩
  | .hbm, ⟨1, _⟩ => ⟨S4096x10, .f32⟩
  | .hbm, ⟨2, _⟩ => ⟨S1024x4096, .i32⟩
  | .hbm, ⟨3, _⟩ => ⟨S1024x4096, .i32⟩
  | .hbm, ⟨4, _⟩ => ⟨S10x4096, .f32⟩
  | .hbm, ⟨5, _⟩ => ⟨S10x4096, .f32⟩
  | .hbm, ⟨6, _⟩ => ⟨S19x4096, .f32⟩
  | .hbm, ⟨7, _⟩ => ⟨S4096x19, .f32⟩
  | .local _ .vmem, ⟨0, _⟩ => ⟨S1024x512, .i32⟩
  | .local _ .vmem, ⟨1, _⟩ => ⟨S1024x512, .i32⟩
  | .local _ .vmem, ⟨2, _⟩ => ⟨S1024x512, .i32⟩
  | .local _ .vmem, ⟨3, _⟩ => ⟨S1024x512, .i32⟩
  | .local _ .vmem, ⟨4, _⟩ => ⟨S10x512, .f32⟩
  | .local _ .vmem, ⟨5, _⟩ => ⟨S10x512, .f32⟩
  | .local _ .vmem, ⟨6, _⟩ => ⟨S10x512, .f32⟩
  | .local _ .vmem, ⟨7, _⟩ => ⟨S10x512, .f32⟩
  | .local _ .vmem, ⟨8, _⟩ => ⟨S19x512, .f32⟩
  | .local _ .vmem, ⟨9, _⟩ => ⟨S19x512, .f32⟩
  | .local _ .vmem, ⟨10, _⟩ => ⟨S19x512, .f32⟩
  | _, _ => ⟨S4096x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v44 : BitVec 32 := Scalar.addi c0_i32 c16_i32
  let c1_i32 : BitVec 32 := 1#32
  ⟨c0_i32, v44, c1_i32⟩
def k0_mult1 (k0_t1 : Fin k0_t1_loop.trips) : BitVec 32 :=
  let c0_i32_40 : BitVec 32 := 0#32
  let c0_i32 : BitVec 32 := 0#32
  let c1_i32 : BitVec 32 := 1#32
  let arg7 : BitVec 32 := Scf.iv c0_i32 c1_i32 k0_t1
  let c1_i32_39 : BitVec 32 := 1#32
  let v55 : BitVec 32 := Scalar.muli arg7 c1_i32_39
  let v56 : BitVec 32 := Scalar.addi c0_i32_40 v55
  let c64_i32 : BitVec 32 := 64#32
  let v57 : BitVec 32 := Scalar.muli v56 c64_i32
  v57
def k0_off1 (k0_t1 : Fin k0_t1_loop.trips) : Fin 2 → Nat :=
  let c0_i32_40 : BitVec 32 := 0#32
  let c0_i32 : BitVec 32 := 0#32
  let c1_i32 : BitVec 32 := 1#32
  let arg7 : BitVec 32 := Scf.iv c0_i32 c1_i32 k0_t1
  let c1_i32_39 : BitVec 32 := 1#32
  let v55 : BitVec 32 := Scalar.muli arg7 c1_i32_39
  let v56 : BitVec 32 := Scalar.addi c0_i32_40 v55
  let c64_i32 : BitVec 32 := 64#32
  let v57 : BitVec 32 := Scalar.muli v56 c64_i32
  let v58 : BitVec 32 := v57
  let v59 : Index := Scalar.indexCast v58
  let c0_41 : Index := 0#32
  ![v59.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S19x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S4096x10_S10x4096_1_0 : S4096x10.Transposes [1, 0] S10x4096
  inb_S19x512_S19x512_0_0 : ∀ a, (![0, 0] : Fin 2 → Nat) a + S19x512.size a ≤ S19x512.size a
  h_S19x512 : 0 < S19x512.numel
  shapeCasts_S19x512_S19x512 : S19x512.ShapeCasts S19x512
  inb_S10x512_S1x512_0_0 : ∀ a, (![0, 0] : Fin 2 → Nat) a + S1x512.size a ≤ S10x512.size a
  h_S1x512 : 0 < S1x512.numel
  shapeCasts_S1x512_S512 : S1x512.ShapeCasts S512
  inb_S10x512_S1x512_1_0 : ∀ a, (![1, 0] : Fin 2 → Nat) a + S1x512.size a ≤ S10x512.size a
  inb_S10x512_S1x512_2_0 : ∀ a, (![2, 0] : Fin 2 → Nat) a + S1x512.size a ≤ S10x512.size a
  inb_S10x512_S1x512_3_0 : ∀ a, (![3, 0] : Fin 2 → Nat) a + S1x512.size a ≤ S10x512.size a
  inb_S10x512_S1x512_4_0 : ∀ a, (![4, 0] : Fin 2 → Nat) a + S1x512.size a ≤ S10x512.size a
  inb_S10x512_S1x512_5_0 : ∀ a, (![5, 0] : Fin 2 → Nat) a + S1x512.size a ≤ S10x512.size a
  inb_S10x512_S1x512_6_0 : ∀ a, (![6, 0] : Fin 2 → Nat) a + S1x512.size a ≤ S10x512.size a
  inb_S10x512_S1x512_7_0 : ∀ a, (![7, 0] : Fin 2 → Nat) a + S1x512.size a ≤ S10x512.size a
  inb_S10x512_S1x512_8_0 : ∀ a, (![8, 0] : Fin 2 → Nat) a + S1x512.size a ≤ S10x512.size a
  inb_S10x512_S1x512_9_0 : ∀ a, (![9, 0] : Fin 2 → Nat) a + S1x512.size a ≤ S10x512.size a
  h_S64x512 : 0 < S64x512.numel
  shapeCasts_S512_S1x512 : S512.ShapeCasts S1x512
  broadcasts_S1x512_S64x512 : S1x512.Broadcasts S64x512
  reduces_S64x512_S512 : S64x512.Reduces [0] S512
  concatenates_S1x512_S1x512_S1x512_S1x512_S1x512_S1x512_S1x512_S1x512_S1x512_S1x512_S1x512_S1x512_S1x512_S1x512_S1x512_S1x512_S1x512_S1x512_S1x512_S19x512_d0 : Shape.Concatenates [S1x512, S1x512, S1x512, S1x512, S1x512, S1x512, S1x512, S1x512, S1x512, S1x512, S1x512, S1x512, S1x512, S1x512, S1x512, S1x512, S1x512, S1x512, S1x512] S19x512 0
  reduces_S19x512_S512 : S19x512.Reduces [0] S512
  broadcasts_S1x512_S19x512 : S1x512.Broadcasts S19x512
  transposes_S19x4096_S4096x19_1_0 : S19x4096.Transposes [1, 0] S4096x19
  hrank0 : 0 < grid0.rank
  k0_t1_ok : k0_t1_loop.OK
  k0_mult1_dvd : ∀ k0_t1 : Fin k0_t1_loop.trips, 64 ∣ (k0_mult1 k0_t1).toNat
  k0_off1_inb : ∀ k0_t1 : Fin k0_t1_loop.trips, ∀ a, (k0_off1 k0_t1) a + S64x512.size a ≤ S1024x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x4096.size a
  hwx0_0 : ∀ i : grid0.Coords, EltTy.bits .i32 = 32 ∨ (Rect.block (s := S1024x4096) S1024x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x4096.size a
  hwx0_1 : ∀ i : grid0.Coords, EltTy.bits .i32 = 32 ∨ (Rect.block (s := S1024x4096) S1024x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10x512.size a ≤ S10x4096.size a
  hwx0_2 : ∀ i : grid0.Coords, EltTy.bits .f32 = 32 ∨ (Rect.block (s := S10x4096) S10x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10x512.size a ≤ S10x4096.size a
  hwx0_3 : ∀ i : grid0.Coords, EltTy.bits .f32 = 32 ∨ (Rect.block (s := S10x4096) S10x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S19x512.size a ≤ S19x4096.size a
  hwx0_4 : ∀ i : grid0.Coords, EltTy.bits .f32 = 32 ∨ (Rect.block (s := S19x4096) S19x512.size (cc0_transform_4 i) (hinb0_4 i)).WholeWords (EltTy.packing .f32)

variable [Facts₀]

abbrev win0_0 : Pipeline.Window sig grid0 :=
  Pipeline.Window.ofSpec (Memref.whole main_arg2) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S19x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x10 : Shape := ⟨2, ![4096, 10]⟩
abbrev S1024x4096 : Shape := ⟨2, ![1024, 4096]⟩
abbrev S4096 : Shape := ⟨1, ![4096]⟩
abbrev S1x4096 : Shape := ⟨2, ![1, 4096]⟩
abbrev S_ : Shape := ⟨0, ![]⟩
abbrev S1024x4096x1 : Shape := ⟨3, ![1024, 4096, 1]⟩
abbrev S1024x4096x2 : Shape := ⟨3, ![1024, 4096, 2]⟩
abbrev S4096x1024 : Shape := ⟨2, ![4096, 1024]⟩
abbrev S4096x19 : Shape := ⟨2, ![4096, 19]⟩
abbrev S4096x1 : Shape := ⟨2, ![4096, 1]⟩
abbrev S4096x1024x1 : Shape := ⟨3, ![4096, 1024, 1]⟩
abbrev S4096x1024x2 : Shape := ⟨3, ![4096, 1024, 2]⟩

abbrev nBuf : Space → Nat
  | .hbm => 82
  | .vmem => 0
  | .smem => 0
  | _ => 0

abbrev bufTy : (tb : Table) → Fin (tcTables nBuf tb) → BufTy
  | .hbm, ⟨0, _⟩ => ⟨S4096x10, .f32⟩
  | .hbm, ⟨1, _⟩ => ⟨S4096x10, .f32⟩
  | .hbm, ⟨2, _⟩ => ⟨S1024x4096, .i32⟩
  | .hbm, ⟨3, _⟩ => ⟨S1024x4096, .i32⟩
  | .hbm, ⟨4, _⟩ => ⟨S4096, .i32⟩
  | .hbm, ⟨5, _⟩ => ⟨S1x4096, .i32⟩
  | .hbm, ⟨6, _⟩ => ⟨S_, .i32⟩
  | .hbm, ⟨7, _⟩ => ⟨S1x4096, .i32⟩
  | .hbm, ⟨8, _⟩ => ⟨S1x4096, .i1⟩
  | .hbm, ⟨9, _⟩ => ⟨S_, .i32⟩
  | .hbm, ⟨10, _⟩ => ⟨S1x4096, .i32⟩
  | .hbm, ⟨11, _⟩ => ⟨S1x4096, .i32⟩
  | .hbm, ⟨12, _⟩ => ⟨S1x4096, .i32⟩
  | .hbm, ⟨13, _⟩ => ⟨S_, .i32⟩
  | .hbm, ⟨14, _⟩ => ⟨S1024x4096, .i32⟩
  | .hbm, ⟨15, _⟩ => ⟨S1024x4096, .i1⟩
  | .hbm, ⟨16, _⟩ => ⟨S_, .i32⟩
  | .hbm, ⟨17, _⟩ => ⟨S1024x4096, .i32⟩
  | .hbm, ⟨18, _⟩ => ⟨S1024x4096, .i32⟩
  | .hbm, ⟨19, _⟩ => ⟨S1024x4096, .i32⟩
  | .hbm, ⟨20, _⟩ => ⟨S1024x4096, .i32⟩
  | .hbm, ⟨21, _⟩ => ⟨S1024x4096x1, .i32⟩
  | .hbm, ⟨22, _⟩ => ⟨S1024x4096x1, .i32⟩
  | .hbm, ⟨23, _⟩ => ⟨S1024x4096x2, .i32⟩
  | .hbm, ⟨24, _⟩ => ⟨S1024x4096, .f32⟩
  | .hbm, ⟨25, _⟩ => ⟨S4096x1024, .f32⟩
  | .hbm, ⟨26, _⟩ => ⟨S1x4096, .i32⟩
  | .hbm, ⟨27, _⟩ => ⟨S_, .i32⟩
  | .hbm, ⟨28, _⟩ => ⟨S1x4096, .i32⟩
  | .hbm, ⟨29, _⟩ => ⟨S1x4096, .i1⟩
  | .hbm, ⟨30, _⟩ => ⟨S_, .i32⟩
  | .hbm, ⟨31, _⟩ => ⟨S1x4096, .i32⟩
  | .hbm, ⟨32, _⟩ => ⟨S1x4096, .i32⟩
  | .hbm, ⟨33, _⟩ => ⟨S1x4096, .i32⟩
  | .hbm, ⟨34, _⟩ => ⟨S_, .i32⟩
  | .hbm, ⟨35, _⟩ => ⟨S1024x4096, .i32⟩
  | .hbm, ⟨36, _⟩ => ⟨S1024x4096, .i1⟩
  | .hbm, ⟨37, _⟩ => ⟨S_, .i32⟩
  | .hbm, ⟨38, _⟩ => ⟨S1024x4096, .i32⟩
  | .hbm, ⟨39, _⟩ => ⟨S1024x4096, .i32⟩
  | .hbm, ⟨40, _⟩ => ⟨S1024x4096, .i32⟩
  | .hbm, ⟨41, _⟩ => ⟨S1024x4096, .i32⟩
  | .hbm, ⟨42, _⟩ => ⟨S1024x4096x1, .i32⟩
  | .hbm, ⟨43, _⟩ => ⟨S1024x4096x1, .i32⟩
  | .hbm, ⟨44, _⟩ => ⟨S1024x4096x2, .i32⟩
  | .hbm, ⟨45, _⟩ => ⟨S1024x4096, .f32⟩
  | .hbm, ⟨46, _⟩ => ⟨S4096x1024, .f32⟩
  | .hbm, ⟨47, _⟩ => ⟨S4096x1024, .f32⟩
  | .hbm, ⟨48, _⟩ => ⟨S1024x4096, .i32⟩
  | .hbm, ⟨49, _⟩ => ⟨S4096x1024, .i32⟩
  | .hbm, ⟨50, _⟩ => ⟨S_, .f32⟩
  | .hbm, ⟨51, _⟩ => ⟨S4096x19, .f32⟩
  | .hbm, ⟨52, _⟩ => ⟨S4096x1, .i32⟩
  | .hbm, ⟨53, _⟩ => ⟨S_, .i32⟩
  | .hbm, ⟨54, _⟩ => ⟨S4096x1, .i32⟩
  | .hbm, ⟨55, _⟩ => ⟨S4096x1, .i1⟩
  | .hbm, ⟨56, _⟩ => ⟨S_, .i32⟩
  | .hbm, ⟨57, _⟩ => ⟨S4096x1, .i32⟩
  | .hbm, ⟨58, _⟩ => ⟨S4096x1, .i32⟩
  | .hbm, ⟨59, _⟩ => ⟨S4096x1, .i32⟩
  | .hbm, ⟨60, _⟩ => ⟨S_, .i32⟩
  | .hbm, ⟨61, _⟩ => ⟨S4096x1024, .i32⟩
  | .hbm, ⟨62, _⟩ => ⟨S4096x1024, .i1⟩
  | .hbm, ⟨63, _⟩ => ⟨S_, .i32⟩
  | .hbm, ⟨64, _⟩ => ⟨S4096x1024, .i32⟩
  | .hbm, ⟨65, _⟩ => ⟨S4096x1024, .i32⟩
  | .hbm, ⟨66, _⟩ => ⟨S4096x1024, .i32⟩
  | .hbm, ⟨67, _⟩ => ⟨S4096x1024, .i32⟩
  | .hbm, ⟨68, _⟩ => ⟨S4096x1024x1, .i32⟩
  | .hbm, ⟨69, _⟩ => ⟨S4096x1024x1, .i32⟩
  | .hbm, ⟨70, _⟩ => ⟨S4096x1024x2, .i32⟩
  | .hbm, ⟨71, _⟩ => ⟨S4096x19, .f32⟩
  | .hbm, ⟨72, _⟩ => ⟨S4096x19, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S4096x19, .f32⟩
  | .hbm, ⟨81, _⟩ => ⟨S4096x19, .f32⟩
  | _, _ => ⟨S4096x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_v24 : Ref sig .tc := ⟨.hbm, 35, rfl⟩
abbrev main_v25 : Ref sig .tc := ⟨.hbm, 36, rfl⟩
abbrev main_c_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst : Ref sig .tc := ⟨.hbm, 50, rfl⟩
abbrev main_v38 : Ref sig .tc := ⟨.hbm, 51, rfl⟩
abbrev main_v39 : Ref sig .tc := ⟨.hbm, 52, rfl⟩
abbrev main_c_7 : Ref sig .tc := ⟨.hbm, 53, rfl⟩
abbrev main_v40 : Ref sig .tc := ⟨.hbm, 54, rfl⟩
abbrev main_v41 : Ref sig .tc := ⟨.hbm, 55, rfl⟩
abbrev main_c_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_9 : Ref sig .tc := ⟨.hbm, 60, rfl⟩
abbrev main_v45 : Ref sig .tc := ⟨.hbm, 61, rfl⟩
abbrev main_v46 : Ref sig .tc := ⟨.hbm, 62, rfl⟩
abbrev main_c_10 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_call0_v0 : Ref sig .tc := ⟨.hbm, 72, rfl⟩
abbrev main_call0_cst : Ref sig .tc := ⟨.hbm, 73, rfl⟩
abbrev main_call0_v1 : Ref sig .tc := ⟨.hbm, 74, rfl⟩
abbrev main_call0_v2 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S_S1024x4096 : S_.BroadcastsInDim S1024x4096 (![] : Fin 0 → Fin S1024x4096.rank)
  bcast_S1x4096_S1024x4096_0_1 : S1x4096.BroadcastsInDim S1024x4096 (![0, 1] : Fin 2 → Fin S1024x4096.rank)
  bcast_S1024x4096_S1024x4096x1_0_1 : S1024x4096.BroadcastsInDim S1024x4096x1 (![0, 1] : Fin 2 → Fin S1024x4096x1.rank)
  concatenates_S1024x4096x1_S1024x4096x1_S1024x4096x2_d2 : Shape.Concatenates [S1024x4096x1, S1024x4096x1] S1024x4096x2 2
  transposes_S1024x4096_S4096x1024_1_0 : S1024x4096.Transposes [1, 0] S4096x1024
  bcast_S_S4096x19 : S_.BroadcastsInDim S4096x19 (![] : Fin 0 → Fin S4096x19.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S_S4096x1024 : S_.BroadcastsInDim S4096x1024 (![] : Fin 0 → Fin S4096x1024.rank)
  bcast_S4096x1_S4096x1024_0_1 : S4096x1.BroadcastsInDim S4096x1024 (![0, 1] : Fin 2 → Fin S4096x1024.rank)
  bcast_S4096x1024_S4096x1024x1_0_1 : S4096x1024.BroadcastsInDim S4096x1024x1 (![0, 1] : Fin 2 → Fin S4096x1024x1.rank)
  concatenates_S4096x1024x1_S4096x1024x1_S4096x1024x2_d2 : Shape.Concatenates [S4096x1024x1, S4096x1024x1] S4096x1024x2 2
  reducesTo_S4096x19_S4096_d1 : S4096x19.ReducesTo [1] S4096
  h_S_ : 0 < S_.numel
  bcast_S4096x1_S4096x19_0_1 : S4096x1.BroadcastsInDim S4096x19 (![0, 1] : Fin 2 → Fin S4096x19.rank)
  gather_S4096x10_S1024x4096x2_S1024x4096_n_01_n_n_01_2_11_wf : GatherDims.WF S4096x10 S1024x4096x2 S1024x4096 [] [0, 1] [] [0, 1] [] 2 ![1, 1]
  scatter_S4096x19_S4096x1024x2_S4096x1024_n_01_01_2_wf : ScatterDims.WF S4096x19 S4096x1024x2 S4096x1024 [] [0, 1] [0, 1] 2

variable [Facts₀]

def gather_S4096x10_S1024x4096x2_S1024x4096_n_01_n_n_01_2_11 : GatherDims S4096x10 S1024x4096x2 S1024x4096 where
  offsetDims := []
  collapsedSliceDims := [0, 1]
  operandBatchingDims := []
  startIndicesBatchingDims := []
  startIndexMap := [0, 1]
  indexVectorDim := 2
  sliceSizes := ![1, 1]
  wf := gather_S4096x10_S1024x4096x2_S1024x4096_n_01_n_n_01_2_11_wf
def scatter_S4096x19_S4096x1024x2_S4096x1024_n_01_01_2 : ScatterDims S4096x19 S4096x1024x2 S4096x1024 where
  updateWindowDims := []
  insertedWindowDims := [0, 1]
  scatterDimsToOperandDims := [0, 1]
  indexVectorDim := 2
  wf := scatter_S4096x19_S4096x1024x2_S4096x1024_n_01_01_2_wf

class Facts : Prop extends Facts₀ where

variable [Facts]
-- ==== Proof.Spec.lean ====
/-
  The function both programs compute, index by index, over the extended reals.

  For a batch column b and a sample k, each index word selects one of the ten class probabilities of row b
  (a word outside 0..9 selects nothing: the value 0).  A sample contributes the product of its two selected
  probabilities to the output class given by the SUM of its two index words (a 32-bit sum), when that sum is
  one of the nineteen classes 0..18.  The row of nineteen accumulated values is then divided by the larger of
  its Euclidean norm and a fixed small constant.
-/
import Idealize.ShloMosaic.PureOps.Ideal
import Idealize.ShloMosaic.Lib.ValueIdx

noncomputable section

namespace Cert.Ised

open Idealize.ShloMosaic Idealize.ShloMosaic.ValueIdx

abbrev SX : Shape := ⟨2, ![4096, 10]⟩
abbrev SI : Shape := ⟨2, ![1024, 4096]⟩
abbrev SO : Shape := ⟨2, ![4096, 19]⟩

/-- The small constant under the norm, as the two programs both write it (one f32 word, never evaluated). -/
abbrev eps : EReal := Ideal.ofBits .f32 0x2B8CBCCC#32

/-- The class probability of row `b` that the index word `w` selects; nothing (zero) outside the ten classes. -/
def pick (x : SX.Idx → EReal) (b : Fin 4096) (w : BitVec 32) : EReal :=
  if h : w.toNat < 10 then x (ix2 b ⟨w.toNat, h⟩) else 0

/-- What sample `k` of batch column `b` adds to output class `m`. -/
def term (x1 x2 : SX.Idx → EReal) (i1 i2 : SI.Idx → BitVec 32) (b : Fin 4096) (m : Fin 19) (k : Fin 1024) : EReal :=
  if i1 (ix2 k b) + i2 (ix2 k b) = BitVec.ofNat 32 m.val then pick x1 b (i1 (ix2 k b)) * pick x2 b (i2 (ix2 k b)) else 0

/-- The accumulated value of output class `m` for batch column `b`: the sum over all samples. -/
def acc (x1 x2 : SX.Idx → EReal) (i1 i2 : SI.Idx → BitVec 32) (b : Fin 4096) (m : Fin 19) : EReal :=
  ∑ k : Fin 1024, term x1 x2 i1 i2 b m k

/-- The larger of the Euclidean norm of row `b` and the small constant. -/
def den (x1 x2 : SX.Idx → EReal) (i1 i2 : SI.Idx → BitVec 32) (b : Fin 4096) : EReal :=
  max (Ideal.sqrt (∑ m : Fin 19, acc x1 x2 i1 i2 b m * acc x1 x2 i1 i2 b m)) eps

/-- The result array: each accumulated row divided by its guarded norm. -/
def G (x1 x2 : SX.Idx → EReal) (i1 i2 : SI.Idx → BitVec 32) : SO.Idx → EReal :=
  fun j => Ideal.div (acc x1 x2 i1 i2 (j 0) (j 1)) (den x1 x2 i1 i2 (j 0))

/-! ## The same function on one column block

One grid point sees 512 batch columns: the two index blocks (1024 samples by 512 columns) and the two
probability blocks TRANSPOSED (10 classes by 512 columns), and produces the 19-by-512 block of results. -/

abbrev SIB : Shape := ⟨2, ![1024, 512]⟩
abbrev SXB : Shape := ⟨2, ![10, 512]⟩
abbrev SOB : Shape := ⟨2, ![19, 512]⟩

/-- The class probability of column `l` that the index word `w` selects in a transposed block; zero outside the ten classes. -/
def pickB (p : SXB.Idx → EReal) (l : Fin 512) (w : BitVec 32) : EReal :=
  if h : w.toNat < 10 then p (ix2 ⟨w.toNat, h⟩ l) else 0

/-- What sample `κ` of column `l` adds to output class `m`, on blocks. -/
def termB (a b : SIB.Idx → BitVec 32) (p q : SXB.Idx → EReal) (l : Fin 512) (m : Fin 19) (κ : Fin 1024) : EReal :=
  if a (ix2 κ l) + b (ix2 κ l) = BitVec.ofNat 32 m.val then pickB p l (a (ix2 κ l)) * pickB q l (b (ix2 κ l)) else 0

/-- The accumulated value of class `m` for column `l` of the block. -/
def accB (a b : SIB.Idx → BitVec 32) (p q : SXB.Idx → EReal) (l : Fin 512) (m : Fin 19) : EReal :=
  ∑ κ : Fin 1024, termB a b p q l m κ

/-- The block of results: row `m`, column `l` is the accumulated value over the column's guarded norm. -/
def GB (a b : SIB.Idx → BitVec 32) (p q : SXB.Idx → EReal) : SOB.Idx → EReal :=
  fun j => Ideal.div (accB a b p q (j 1) (j 0))
    (max (Ideal.sqrt (∑ m : Fin 19, accB a b p q (j 1) m * accB a b p q (j 1) m)) eps)

end Cert.Ised

end
-- ==== Proof.BodyRun.lean ====
import proofs.«403822_j73005854097950_3_alg».proof.Proof.Spec
import proofs.«403822_j73005854097950_3_alg».proof.Proof.Gen.KernelIdeal.Frame
import Idealize.ShloMosaic.Lib.Pipeline.Value
import Idealize.ShloMosaic.Lib.ValueIdx
import Idealize.ShloMosaic.Lib.Tactic

set_option maxRecDepth 16384

noncomputable section

namespace Cert.Ised.Run

open Idealize.ShloMosaic Idealize.ShloMosaic.TcCoe Idealize.ShloMosaic.Tactic Idealize.SL.Sem
open Idealize.ShloMosaic.ValueIdx Cert.KernelIdeal Cert.KernelIdeal.Gen

variable {F : FTy → Type} [FloatOps F]

theorem hz : (![0, 0] : Fin 2 → Nat) = fun _ => 0 := funext fun a => by fin_cases a <;> rfl

/-- The rectangle of the whole 19×512 block. -/
abbrev wholeO : Rect S19x512 := Rect.unit ![0, 0] ![19, 512] inb_S19x512_S19x512_0_0

/-- One trip stores ONE piece, the whole accumulator block: what it found there plus the trip's contribution. -/
theorem tripL_eq (𝒱 : Variants) (c : Dev nD) (bd : Option 𝒱.V) (i : grid0.Coords) (arg1 : Memref sig .tc .vmem S1024x512 .i32) (harg1 : arg1.IsWhole) (arg2 : Memref sig .tc .vmem S1024x512 .i32) (harg2 : arg2.IsWhole) (arg3 : Memref sig .tc .vmem S10x512 .f32) (harg3 : arg3.IsWhole) (arg4 : Memref sig .tc .vmem S10x512 .f32) (harg4 : arg4.IsWhole) (arg5 : Memref sig .tc .vmem S19x512 .f32) (harg5 : arg5.IsWhole) (arg6 : Memref sig .tc .vmem S19x512 .f32) (harg6 : arg6.IsWhole) (v5 : FVec F S512 .f32) (v7 : FVec F S512 .f32) (v9 : FVec F S512 .f32) (v11 : FVec F S512 .f32) (v13 : FVec F S512 .f32) (v15 : FVec F S512 .f32) (v17 : FVec F S512 .f32) (v19 : FVec F S512 .f32) (v21 : FVec F S512 .f32) (v23 : FVec F S512 .f32) (v25 : FVec F S512 .f32) (v27 : FVec F S512 .f32) (v28 : Vec F S1x512 .f32) (v30 : Vec F S1x512 .f32) (v32 : Vec F S1x512 .f32) (v34 : Vec F S1x512 .f32) (v36 : Vec F S1x512 .f32) (v38 : Vec F S1x512 .f32) (v40 : Vec F S1x512 .f32) (v42 : Vec F S1x512 .f32) (X_arg1 : BufTy.Contents (Elt F) arg1.view.ty) (X_arg2 : BufTy.Contents (Elt F) arg2.view.ty) (k : Fin k0_t1_loop.trips) (f_arg6 : BufTy.Contents (Elt F) arg6.view.ty) :
    tripL_k0_t1 (F := F) 𝒱 c bd i arg1 harg1 arg2 harg2 arg3 harg3 arg4 harg4 arg5 harg5 arg6 harg6 v5 v7 v9 v11 v13 v15 v17 v19 v21 v23 v25 v27 v28 v30 v32 v34 v36 v38 v40 v42 X_arg1 X_arg2 k f_arg6
      = [⟨wholeO, k0_pay10 (View.readAt (Elt F) arg6.view wholeO.toLoadRect f_arg6)
          (trip_k0_t1.sl.v282 arg1 arg2 v5 v7 v9 v11 v13 v15 v17 v19 v21 v23 v25 v27 v28 v30 v32 v34 v36 v38 v40 v42 X_arg1 X_arg2 k)⟩] := by
  unfold tripL_k0_t1 trip_k0_t1
  dsimp only
  unfold trip_k0_t1.sl.r_26
  rfl

/-- The piece the body stores before the loop: the zero block over the whole accumulator. -/
abbrev zeroP : View.Piece (Elt F) S19x512 .f32 := ⟨Rect.unit ![0, 0] S19x512.size inb_S19x512_S19x512_0_0, k0_pay43⟩

/-- A whole-block load after a whole-block store LAST reads that store's payload, whatever was stored before. -/
theorem read_after_whole_store (arg6 : Memref sig .tc .vmem S19x512 .f32) (f : BufTy.Contents (Elt F) arg6.view.ty)
    (w : FVec F S19x512 .f32) (L : List (View.Piece (Elt F) S19x512 .f32)) :
    View.readAt (Elt F) arg6.view wholeO.toLoadRect (arg6.view.writes (Elt F) f ((⟨wholeO, w⟩ : View.Piece (Elt F) S19x512 .f32) :: L)) = w := by
  rw [View.readAt_eq_ld, View.read_writes_eq_canon _ _ _ (fun y => ⟨_, List.mem_cons_self, View.mem_set_unit_zero hz inb_S19x512_S19x512_0_0 y⟩),
    View.canon_cons_unit_zero (S := S19x512) hz]
  exact View.ld_unit_zero (S := S19x512) hz _ _

/-- The accumulator block after `n` trips of the sample loop: zero, then each trip's contribution added in turn. -/
def accV (arg1 arg2 : Memref sig .tc .vmem S1024x512 .i32) (v5 : FVec F S512 .f32) (v7 : FVec F S512 .f32) (v9 : FVec F S512 .f32) (v11 : FVec F S512 .f32) (v13 : FVec F S512 .f32) (v15 : FVec F S512 .f32) (v17 : FVec F S512 .f32) (v19 : FVec F S512 .f32) (v21 : FVec F S512 .f32) (v23 : FVec F S512 .f32) (v25 : FVec F S512 .f32) (v27 : FVec F S512 .f32) (v28 : Vec F S1x512 .f32) (v30 : Vec F S1x512 .f32) (v32 : Vec F S1x512 .f32) (v34 : Vec F S1x512 .f32) (v36 : Vec F S1x512 .f32) (v38 : Vec F S1x512 .f32) (v40 : Vec F S1x512 .f32) (v42 : Vec F S1x512 .f32)
    (X_arg1 : BufTy.Contents (Elt F) arg1.view.ty) (X_arg2 : BufTy.Contents (Elt F) arg2.view.ty) : ℕ → FVec F S19x512 .f32
  | 0 => k0_pay43
  | n + 1 => if h : n < k0_t1_loop.trips then
      k0_pay10 (accV arg1 arg2 v5 v7 v9 v11 v13 v15 v17 v19 v21 v23 v25 v27 v28 v30 v32 v34 v36 v38 v40 v42 X_arg1 X_arg2 n) (trip_k0_t1.sl.v282 arg1 arg2 v5 v7 v9 v11 v13 v15 v17 v19 v21 v23 v25 v27 v28 v30 v32 v34 v36 v38 v40 v42 X_arg1 X_arg2 ⟨n, h⟩)
    else accV arg1 arg2 v5 v7 v9 v11 v13 v15 v17 v19 v21 v23 v25 v27 v28 v30 v32 v34 v36 v38 v40 v42 X_arg1 X_arg2 n

/-- What a whole-block load of the accumulator reads after `n` trips, starting from the zero block: by induction on the
    trips, each trip's one piece being the block it found plus its contribution. -/
theorem loop_read (𝒱 : Variants) (c : Dev nD) (bd : Option 𝒱.V) (i : grid0.Coords) (arg1 : Memref sig .tc .vmem S1024x512 .i32) (harg1 : arg1.IsWhole) (arg2 : Memref sig .tc .vmem S1024x512 .i32) (harg2 : arg2.IsWhole) (arg3 : Memref sig .tc .vmem S10x512 .f32) (harg3 : arg3.IsWhole) (arg4 : Memref sig .tc .vmem S10x512 .f32) (harg4 : arg4.IsWhole) (arg5 : Memref sig .tc .vmem S19x512 .f32) (harg5 : arg5.IsWhole) (arg6 : Memref sig .tc .vmem S19x512 .f32) (harg6 : arg6.IsWhole) (v5 : FVec F S512 .f32) (v7 : FVec F S512 .f32) (v9 : FVec F S512 .f32) (v11 : FVec F S512 .f32) (v13 : FVec F S512 .f32) (v15 : FVec F S512 .f32) (v17 : FVec F S512 .f32) (v19 : FVec F S512 .f32) (v21 : FVec F S512 .f32) (v23 : FVec F S512 .f32) (v25 : FVec F S512 .f32) (v27 : FVec F S512 .f32) (v28 : Vec F S1x512 .f32) (v30 : Vec F S1x512 .f32) (v32 : Vec F S1x512 .f32) (v34 : Vec F S1x512 .f32) (v36 : Vec F S1x512 .f32) (v38 : Vec F S1x512 .f32) (v40 : Vec F S1x512 .f32) (v42 : Vec F S1x512 .f32) (X_arg1 : BufTy.Contents (Elt F) arg1.view.ty) (X_arg2 : BufTy.Contents (Elt F) arg2.view.ty) :
    ∀ n, n ≤ k0_t1_loop.trips →
      View.readAt (Elt F) arg6.view wholeO.toLoadRect
          (arg6.view.writes (Elt F) (arg6.view.writes (Elt F) arg6.view.junk [zeroP])
            (pb_k0_t1 (F := F) 𝒱 c bd i arg1 harg1 arg2 harg2 arg3 harg3 arg4 harg4 arg5 harg5 arg6 harg6 v5 v7 v9 v11 v13 v15 v17 v19 v21 v23 v25 v27 v28 v30 v32 v34 v36 v38 v40 v42 X_arg1 X_arg2 (arg6.view.writes (Elt F) arg6.view.junk [zeroP]) n))
        = accV arg1 arg2 v5 v7 v9 v11 v13 v15 v17 v19 v21 v23 v25 v27 v28 v30 v32 v34 v36 v38 v40 v42 X_arg1 X_arg2 n
  | 0, _ => by
    rw [pb_k0_t1.eq_1, View.writes_nil]
    exact read_after_whole_store arg6 _ k0_pay43 []
  | n + 1, hn => by
    have h : n < k0_t1_loop.trips := hn
    have ih := loop_read 𝒱 c bd i arg1 harg1 arg2 harg2 arg3 harg3 arg4 harg4 arg5 harg5 arg6 harg6 v5 v7 v9 v11 v13 v15 v17 v19 v21 v23 v25 v27 v28 v30 v32 v34 v36 v38 v40 v42 X_arg1 X_arg2 n (Nat.le_of_lt h)
    have e := pb_k0_t1_succ (F := F) 𝒱 c bd i arg1 harg1 arg2 harg2 arg3 harg3 arg4 harg4 arg5 harg5 arg6 harg6 v5 v7 v9 v11 v13 v15 v17 v19 v21 v23 v25 v27 v28 v30 v32 v34 v36 v38 v40 v42 X_arg1 X_arg2 (arg6.view.writes (Elt F) arg6.view.junk [zeroP]) ⟨n, h⟩
    rw [show (⟨n, h⟩ : Fin k0_t1_loop.trips).val + 1 = n + 1 from rfl] at e
    rw [e, tripL_eq, List.singleton_append, read_after_whole_store, accV, dif_pos h]
    show k0_pay10 _ _ = k0_pay10 _ _
    rw [show (⟨n, h⟩ : Fin k0_t1_loop.trips).val = n from rfl, ih]

/-! ## The body's output block -/

/-- Row `r` of a 10×512 class block as the body loads it: a 1×512 vector. -/
abbrev rowLoad (arg : Memref sig .tc .vmem S10x512 .f32) (h : arg.IsWhole) (x : Vec F S10x512 .f32) (r : ℕ)
    (inb : ∀ a, (![r, 0] : Fin 2 → ℕ) a + S1x512.size a ≤ S10x512.size a) : Vec F S1x512 .f32 :=
  View.readAt (Elt F) arg.view (Rect.unit (s := S10x512) ![r, 0] S1x512.size inb).toLoadRect (h.unread x)

/-- The loaded row at column `l` is the block's entry (r, l). -/
theorem rowLoad_apply (arg : Memref sig .tc .vmem S10x512 .f32) (h : arg.IsWhole) (x : Vec F S10x512 .f32) (r : ℕ)
    (inb : ∀ a, (![r, 0] : Fin 2 → ℕ) a + S1x512.size a ≤ S10x512.size a) (hr : r < 10) (l : Fin 512) :
    rowLoad arg h x r inb (ix2 (0 : Fin 1) l) = x (ix2 (⟨r, hr⟩ : Fin 10) l) := by
  unfold rowLoad
  rw [View.readAt_eq_ld, h.read_unread]
  show x ((Rect.unit (s := S10x512) ![r, 0] S1x512.size inb).emb (ix2 (0 : Fin 1) l)) = _
  refine congrArg x (funext fun a => Fin.ext ?_)
  rw [Rect.emb_apply]
  match a with
  | ⟨0, _⟩ => show r + 1 * 0 = r; omega
  | ⟨1, _⟩ => show 0 + 1 * l.val = l.val; omega

/-- Flattening a 1×512 row to a 512-vector keeps the column. -/
theorem flat_apply (v : Vec F S1x512 .f32) (l : Fin 512) :
    shapeCast S512 v shapeCasts_S1x512_S512 (ix1 l) = v (ix2 (0 : Fin 1) l) := by
  refine shapeCast_apply v shapeCasts_S1x512_S512 (ix1 l) (ix2 (0 : Fin 1) l) ?_
  rw [Shape.rowMajor_val_two, Shape.rowMajor_val_one]
  show 0 * 512 + l.val = l.val
  omega

/-- What the body leaves in the output's staging buffer: the epilogue applied to the accumulator after all the trips,
    the class rows being the rows of the two transposed probability blocks `x2`, `x3` and the loop reading the two
    index blocks `x0`, `x1`. -/
theorem out_eq (c : Dev nD) (i : grid0.Coords) (arg1 : Memref sig .tc .vmem S1024x512 .i32) (harg1 : arg1.IsWhole) (arg2 : Memref sig .tc .vmem S1024x512 .i32) (harg2 : arg2.IsWhole) (arg3 : Memref sig .tc .vmem S10x512 .f32) (harg3 : arg3.IsWhole) (arg4 : Memref sig .tc .vmem S10x512 .f32) (harg4 : arg4.IsWhole) (arg5 : Memref sig .tc .vmem S19x512 .f32) (harg5 : arg5.IsWhole) (arg6 : Memref sig .tc .vmem S19x512 .f32) (harg6 : arg6.IsWhole)     (x0 : Vec F S1024x512 .i32) (x1 : Vec F S1024x512 .i32) (x2 : Vec F S10x512 .f32) (x3 : Vec F S10x512 .f32) :
    out0_A_4 (F := F) c i arg1 harg1 arg2 harg2 arg3 harg3 arg4 harg4 arg5 harg5 arg6 harg6 x0 x1 x2 x3
      = k0_pay11 (accV arg1 arg2 (k0_pay44 (rowLoad arg3 harg3 x2 0 inb_S10x512_S1x512_0_0)) (k0_pay45 (rowLoad arg3 harg3 x2 1 inb_S10x512_S1x512_1_0)) (k0_pay46 (rowLoad arg3 harg3 x2 2 inb_S10x512_S1x512_2_0)) (k0_pay47 (rowLoad arg3 harg3 x2 3 inb_S10x512_S1x512_3_0)) (k0_pay48 (rowLoad arg3 harg3 x2 4 inb_S10x512_S1x512_4_0)) (k0_pay49 (rowLoad arg3 harg3 x2 5 inb_S10x512_S1x512_5_0)) (k0_pay50 (rowLoad arg3 harg3 x2 6 inb_S10x512_S1x512_6_0)) (k0_pay51 (rowLoad arg3 harg3 x2 7 inb_S10x512_S1x512_7_0)) (k0_pay52 (rowLoad arg3 harg3 x2 8 inb_S10x512_S1x512_8_0)) (k0_pay53 (rowLoad arg3 harg3 x2 9 inb_S10x512_S1x512_9_0)) (k0_pay54 (rowLoad arg4 harg4 x3 0 inb_S10x512_S1x512_0_0)) (k0_pay55 (rowLoad arg4 harg4 x3 1 inb_S10x512_S1x512_1_0)) (rowLoad arg4 harg4 x3 2 inb_S10x512_S1x512_2_0) (rowLoad arg4 harg4 x3 3 inb_S10x512_S1x512_3_0) (rowLoad arg4 harg4 x3 4 inb_S10x512_S1x512_4_0) (rowLoad arg4 harg4 x3 5 inb_S10x512_S1x512_5_0) (rowLoad arg4 harg4 x3 6 inb_S10x512_S1x512_6_0) (rowLoad arg4 harg4 x3 7 inb_S10x512_S1x512_7_0) (rowLoad arg4 harg4 x3 8 inb_S10x512_S1x512_8_0) (rowLoad arg4 harg4 x3 9 inb_S10x512_S1x512_9_0) (harg1.unread x0) (harg2.unread x1) k0_t1_loop.trips) := by
  unfold out0_A_4
  rw [View.read_writes_eq_canon _ _ _ (cover0_A_4 c i arg1 harg1 arg2 harg2 arg3 harg3 arg4 harg4 arg5 harg5 arg6 harg6 x0 x1 x2 x3)]
  unfold kernelRun0_A
  dsimp only
  rw [View.canon_unit_zero (S := S19x512) hz]
  sl_unfold_words
  rw [View.writes_append]
  exact congrArg k0_pay11 (loop_read Variants.none c none i arg1 harg1 arg2 harg2 arg3 harg3 arg4 harg4 arg5 harg5 arg6 harg6
    _ _ _ _ _ _ _ _ _ _ _ _ _ _ _ _ _ _ _ _ _ _ k0_t1_loop.trips (Nat.le_refl _))

end Cert.Ised.Run

end
-- ==== Proof.TripValue.lean ====
import proofs.«403822_j73005854097950_3_alg».proof.Proof.Spec
import proofs.«403822_j73005854097950_3_alg».proof.Proof.Gen.KernelIdeal.Loops
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

set_option maxRecDepth 16384

noncomputable section

namespace Cert.Ised.Body

open Idealize.ShloMosaic Idealize.ShloMosaic.TcCoe Idealize.ShloMosaic.ValueIdx Cert.KernelIdeal Cert.KernelIdeal.Gen

/-! ## Words, rows and loads at an index -/

/-- A select whose condition is "the word at the index equals c" is the if-then-else on that equation. -/
theorem sel_eq {α : Type} {s : Shape} (A : IVec s 32) (c : BitVec 32) (X Y : s.Idx → α) (j : s.Idx) :
    select (cmpi .eq A (broadcast s c)) X Y j = if A j = c then X j else Y j := by
  show Scalar.select (IntOp.cmpi .eq (A j) c) (X j) (Y j) = _
  unfold Scalar.select IntOp.cmpi
  by_cases h : A j = c
  · have e : (A j == c) = true := by simpa using h
    simp [e, h]
  · have e : (A j == c) = false := by simpa using h
    simp [e, h]

/-- A 512-vector viewed as one row and broadcast over 64 rows reads, at row r and column l, its entry l. -/
theorem row_at (v : FVec Ideal S512 .f32) (h1 : S512.ShapeCasts S1x512) (h2 : S1x512.Broadcasts S64x512)
    (r : Fin 64) (l : Fin 512) :
    broadcastTo S64x512 (shapeCast S1x512 v h1) h2 (ix2 r l) = v (ix1 l) := by
  rw [broadcastTo_apply _ h2 (ix2 r l) (ix2 (0 : Fin 1) l) (by intro a; fin_cases a <;> rfl),
    shapeCast_apply _ h1 (ix2 (0 : Fin 1) l) (ix1 l) (by rw [Shape.rowMajor_val_one, Shape.rowMajor_val_two]; simp)]

/-- A one-row block viewed as a 512-vector reads, at l, the row's entry l. -/
theorem unrow_at (v : Vec Ideal S1x512 .f32) (h : S1x512.ShapeCasts S512) (l : Fin 512) :
    shapeCast S512 v h (ix1 l) = v (ix2 (0 : Fin 1) l) :=
  shapeCast_apply _ h (ix1 l) (ix2 (0 : Fin 1) l) (by rw [Shape.rowMajor_val_one, Shape.rowMajor_val_two]; simp)

/-- A 512-vector viewed as one row reads, at (0, l), its entry l. -/
theorem torow_at (v : FVec Ideal S512 .f32) (h : S512.ShapeCasts S1x512) (l : Fin 512) :
    shapeCast S1x512 v h (ix2 (0 : Fin 1) l) = v (ix1 l) :=
  shapeCast_apply _ h (ix2 (0 : Fin 1) l) (ix1 l) (by rw [Shape.rowMajor_val_one, Shape.rowMajor_val_two]; simp)

/-- The same reading, with the block's entries taken as extended reals from the start. -/
theorem unrow_at' (v : Vec Ideal S1x512 .f32) (h : S1x512.ShapeCasts S512) (l : Fin 512) :
    shapeCast (α := Ideal .f32) S512 v h (ix1 l) = v (ix2 (0 : Fin 1) l) := unrow_at v h l

/-- Row 64k + r of the blocks exists: there are at most sixteen trips. -/
theorem chunk_lt (k : Fin k0_t1_loop.trips) (r : Fin 64) : 64 * k.val + r.val < 1024 := by
  have := k.isLt; have := k0_t1_abs.2.1; omega

/-- The chunk of rows 64k .. 64k+63 loaded from a whole block reads, at (r, l), the block at (64k + r, l). -/
theorem chunk_at (arg : Memref sig .tc .vmem S1024x512 .i32) (harg : arg.IsWhole) (a : Vec Ideal S1024x512 .i32)
    (k : Fin k0_t1_loop.trips) (inb : ∀ d, (k0_off1 k) d + S64x512.size d ≤ S1024x512.size d) (r : Fin 64) (l : Fin 512) :
    View.readAt (Elt Ideal) arg.view (Rect.unit (s := S1024x512) (k0_off1 k) S64x512.size inb).toLoadRect (harg.unread a) (ix2 r l)
      = a (ix2 ⟨64 * k.val + r.val, chunk_lt k r⟩ l) := by
  rw [View.readAt_apply, harg.read_unread]
  refine congrArg a (funext fun d => Fin.ext ?_)
  rw [LoadRect.idx_apply]
  show (k0_off1 k) d + 1 * (ix2 r l d).val = _
  rw [k0_off1_eq]
  match d with
  | ⟨0, _⟩ => simp
  | ⟨1, _⟩ => simp

/-- The if-then-else chain over the ten classes is the selected class probability. -/
theorem pick_chain (p : Vec Ideal S10x512 .f32) (l : Fin 512) (w : BitVec 32) :
    (if w = 9#32 then p (ix2 (9 : Fin 10) l) else if w = 8#32 then p (ix2 (8 : Fin 10) l)
      else if w = 7#32 then p (ix2 (7 : Fin 10) l) else if w = 6#32 then p (ix2 (6 : Fin 10) l)
      else if w = 5#32 then p (ix2 (5 : Fin 10) l) else if w = 4#32 then p (ix2 (4 : Fin 10) l)
      else if w = 3#32 then p (ix2 (3 : Fin 10) l) else if w = 2#32 then p (ix2 (2 : Fin 10) l)
      else if w = 1#32 then p (ix2 (1 : Fin 10) l) else if w = 0#32 then p (ix2 (0 : Fin 10) l) else 0)
      = Cert.Ised.pickB p l w := by
  unfold Cert.Ised.pickB
  by_cases hlt : w.toNat < 10
  · rw [dif_pos hlt]
    have hw : w = BitVec.ofNat 32 w.toNat := by simp
    obtain ⟨n, hn, e⟩ : ∃ n : Nat, n < 10 ∧ w = BitVec.ofNat 32 n := ⟨w.toNat, hlt, hw⟩
    subst e
    interval_cases n <;> rfl
  · rw [dif_neg hlt]
    have hc : ∀ c : Nat, c < 10 → ¬ w = BitVec.ofNat 32 c := fun c hc e => hlt (by rw [e]; simp; omega)
    rw [if_neg (hc 9 (by norm_num)), if_neg (hc 8 (by norm_num)), if_neg (hc 7 (by norm_num)),
      if_neg (hc 6 (by norm_num)), if_neg (hc 5 (by norm_num)), if_neg (hc 4 (by norm_num)),
      if_neg (hc 3 (by norm_num)), if_neg (hc 2 (by norm_num)), if_neg (hc 1 (by norm_num)),
      if_neg (hc 0 (by norm_num))]

/-! ## The masked lane sums -/

/-- The sum over the 64 rows of the entries whose index sum is the class c (the others replaced by zero). -/
theorem masked_sum (P : FVec Ideal S64x512 .f32) (S : IVec S64x512 32) (c : BitVec 32) (z : Ideal .f32) (hz : z = 0)
    (h : S64x512.Reduces [0] S512) (hφ : FKind.Formats .f32) (hacc : (0x00000000#32 : BitVec 32) = FKind.add.neutral .f32 hφ)
    (l : Fin 512) :
    multiReduction .add [0] S512 (select (cmpi .eq S (broadcast S64x512 c)) P (broadcast S64x512 z)) 0x00000000#32 h hφ hacc (ix1 l)
      = ∑ r : Fin 64, if S (ix2 r l) = c then P (ix2 r l) else 0 := by
  refine (Ideal.multiReduction_add_single _ _ h hφ hacc (ix1 l)).trans ?_
  show ∑ r : Fin 64, _ = _
  refine Finset.sum_congr rfl fun r _ => ?_
  have e : h.lift (ix1 l) r = ix2 r l := by
    funext d
    match d with
    | ⟨0, _⟩ => rfl
    | ⟨1, _⟩ => rfl
  rw [e, sel_eq, hz]
  rfl

/-! Classes 5 to 18: each class row is the masked sum of the product block over the rows whose index sum is the class. -/

theorem pay23_at (P : FVec Ideal S64x512 .f32) (S : IVec S64x512 32) (l : Fin 512) :
    k0_pay23 P S (ix1 l) = ∑ r : Fin 64, if S (ix2 r l) = 5#32 then P (ix2 r l) else 0 :=
  masked_sum P S _ _ Ideal.ofBits_zero_f32 reduces_S64x512_S512 (.inl rfl) rfl l

theorem pay24_at (P : FVec Ideal S64x512 .f32) (S : IVec S64x512 32) (l : Fin 512) :
    k0_pay24 P S (ix1 l) = ∑ r : Fin 64, if S (ix2 r l) = 6#32 then P (ix2 r l) else 0 :=
  masked_sum P S _ _ Ideal.ofBits_zero_f32 reduces_S64x512_S512 (.inl rfl) rfl l

theorem pay25_at (P : FVec Ideal S64x512 .f32) (S : IVec S64x512 32) (l : Fin 512) :
    k0_pay25 P S (ix1 l) = ∑ r : Fin 64, if S (ix2 r l) = 7#32 then P (ix2 r l) else 0 :=
  masked_sum P S _ _ Ideal.ofBits_zero_f32 reduces_S64x512_S512 (.inl rfl) rfl l

theorem pay26_at (P : FVec Ideal S64x512 .f32) (S : IVec S64x512 32) (l : Fin 512) :
    k0_pay26 P S (ix1 l) = ∑ r : Fin 64, if S (ix2 r l) = 8#32 then P (ix2 r l) else 0 :=
  masked_sum P S _ _ Ideal.ofBits_zero_f32 reduces_S64x512_S512 (.inl rfl) rfl l

theorem pay27_at (P : FVec Ideal S64x512 .f32) (S : IVec S64x512 32) (l : Fin 512) :
    k0_pay27 P S (ix1 l) = ∑ r : Fin 64, if S (ix2 r l) = 9#32 then P (ix2 r l) else 0 :=
  masked_sum P S _ _ Ideal.ofBits_zero_f32 reduces_S64x512_S512 (.inl rfl) rfl l

theorem pay28_at (P : FVec Ideal S64x512 .f32) (S : IVec S64x512 32) (l : Fin 512) :
    k0_pay28 P S (ix1 l) = ∑ r : Fin 64, if S (ix2 r l) = 10#32 then P (ix2 r l) else 0 :=
  masked_sum P S _ _ Ideal.ofBits_zero_f32 reduces_S64x512_S512 (.inl rfl) rfl l

theorem pay29_at (P : FVec Ideal S64x512 .f32) (S : IVec S64x512 32) (l : Fin 512) :
    k0_pay29 P S (ix1 l) = ∑ r : Fin 64, if S (ix2 r l) = 11#32 then P (ix2 r l) else 0 :=
  masked_sum P S _ _ Ideal.ofBits_zero_f32 reduces_S64x512_S512 (.inl rfl) rfl l

theorem pay32_at (P : FVec Ideal S64x512 .f32) (S : IVec S64x512 32) (l : Fin 512) :
    k0_pay32 P S (ix1 l) = ∑ r : Fin 64, if S (ix2 r l) = 13#32 then P (ix2 r l) else 0 :=
  masked_sum P S _ _ Ideal.ofBits_zero_f32 reduces_S64x512_S512 (.inl rfl) rfl l

theorem pay33_at (P : FVec Ideal S64x512 .f32) (S : IVec S64x512 32) (l : Fin 512) :
    k0_pay33 P S (ix1 l) = ∑ r : Fin 64, if S (ix2 r l) = 14#32 then P (ix2 r l) else 0 :=
  masked_sum P S _ _ Ideal.ofBits_zero_f32 reduces_S64x512_S512 (.inl rfl) rfl l

theorem pay34_at (P : FVec Ideal S64x512 .f32) (S : IVec S64x512 32) (l : Fin 512) :
    k0_pay34 P S (ix1 l) = ∑ r : Fin 64, if S (ix2 r l) = 15#32 then P (ix2 r l) else 0 :=
  masked_sum P S _ _ Ideal.ofBits_zero_f32 reduces_S64x512_S512 (.inl rfl) rfl l

theorem pay35_at (P : FVec Ideal S64x512 .f32) (S : IVec S64x512 32) (l : Fin 512) :
    k0_pay35 P S (ix1 l) = ∑ r : Fin 64, if S (ix2 r l) = 16#32 then P (ix2 r l) else 0 :=
  masked_sum P S _ _ Ideal.ofBits_zero_f32 reduces_S64x512_S512 (.inl rfl) rfl l

theorem pay36_at (P : FVec Ideal S64x512 .f32) (S : IVec S64x512 32) (l : Fin 512) :
    k0_pay36 P S (ix1 l) = ∑ r : Fin 64, if S (ix2 r l) = 17#32 then P (ix2 r l) else 0 :=
  masked_sum P S _ _ Ideal.ofBits_zero_f32 reduces_S64x512_S512 (.inl rfl) rfl l

theorem pay37_at (P : FVec Ideal S64x512 .f32) (S : IVec S64x512 32) (l : Fin 512) :
    k0_pay37 P S (ix1 l) = ∑ r : Fin 64, if S (ix2 r l) = 18#32 then P (ix2 r l) else 0 :=
  masked_sum P S _ _ Ideal.ofBits_zero_f32 reduces_S64x512_S512 (.inl rfl) rfl l

theorem pay31_at (P : FVec Ideal S64x512 .f32) (S : IVec S64x512 32) (l : Fin 512) :
    k0_pay31 P (k0_pay30 S) (FloatOps.ofBits .f32 0#32) (ix1 l) = ∑ r : Fin 64, if S (ix2 r l) = 12#32 then P (ix2 r l) else 0 :=
  masked_sum P S _ _ Ideal.ofBits_zero_f32 reduces_S64x512_S512 (.inl rfl) rfl l

/-! Classes 0 to 4: the same masked sums, formed from the product and the index sum inside the row's own term and
    then viewed as one row. -/

theorem pay18_at (c d e : FVec Ideal S512 .f32) (A B : Vec Ideal S64x512 .i32) (X Y : FVec Ideal S64x512 .f32) (l : Fin 512) :
    k0_pay38 (k0_pay18 c d e A B X Y) (ix2 (0 : Fin 1) l)
      = ∑ r : Fin 64, if k0_pay17 A B (ix2 r l) = 0#32 then k0_pay16 c d e A B X Y (ix2 r l) else 0 :=
  (torow_at _ _ l).trans (masked_sum _ _ _ _ Ideal.ofBits_zero_f32 reduces_S64x512_S512 (.inl rfl) rfl l)

theorem pay19_at (c d e : FVec Ideal S512 .f32) (A B : Vec Ideal S64x512 .i32) (X Y : FVec Ideal S64x512 .f32) (l : Fin 512) :
    k0_pay39 (k0_pay19 c d e A B X Y) (ix2 (0 : Fin 1) l)
      = ∑ r : Fin 64, if k0_pay17 A B (ix2 r l) = 1#32 then k0_pay16 c d e A B X Y (ix2 r l) else 0 :=
  (torow_at _ _ l).trans (masked_sum _ _ _ _ Ideal.ofBits_zero_f32 reduces_S64x512_S512 (.inl rfl) rfl l)

theorem pay20_at (c d e : FVec Ideal S512 .f32) (A B : Vec Ideal S64x512 .i32) (X Y : FVec Ideal S64x512 .f32) (l : Fin 512) :
    k0_pay40 (k0_pay20 c d e A B X Y) (ix2 (0 : Fin 1) l)
      = ∑ r : Fin 64, if k0_pay17 A B (ix2 r l) = 2#32 then k0_pay16 c d e A B X Y (ix2 r l) else 0 :=
  (torow_at _ _ l).trans (masked_sum _ _ _ _ Ideal.ofBits_zero_f32 reduces_S64x512_S512 (.inl rfl) rfl l)

theorem pay21_at (c d e : FVec Ideal S512 .f32) (A B : Vec Ideal S64x512 .i32) (X Y : FVec Ideal S64x512 .f32) (l : Fin 512) :
    k0_pay41 (k0_pay21 c d e A B X Y) (ix2 (0 : Fin 1) l)
      = ∑ r : Fin 64, if k0_pay17 A B (ix2 r l) = 3#32 then k0_pay16 c d e A B X Y (ix2 r l) else 0 :=
  (torow_at _ _ l).trans (masked_sum _ _ _ _ Ideal.ofBits_zero_f32 reduces_S64x512_S512 (.inl rfl) rfl l)

theorem pay22_at (c d e : FVec Ideal S512 .f32) (A B : Vec Ideal S64x512 .i32) (X Y : FVec Ideal S64x512 .f32) (l : Fin 512) :
    k0_pay42 (k0_pay22 c d e A B X Y) (ix2 (0 : Fin 1) l)
      = ∑ r : Fin 64, if k0_pay17 A B (ix2 r l) = 4#32 then k0_pay16 c d e A B X Y (ix2 r l) else 0 :=
  (torow_at _ _ l).trans (masked_sum _ _ _ _ Ideal.ofBits_zero_f32 reduces_S64x512_S512 (.inl rfl) rfl l)

/-! ## The stack of the nineteen class rows -/

/-- Nineteen one-row blocks stacked along the first axis read, at (m, l), row m at (0, l). -/
theorem concat_rows (f : Fin 19 → (S1x512.Idx → EReal)) (xs : List ((s : Shape) × (s.Idx → EReal)))
    (hxs : xs = List.ofFn fun n : Fin 19 => (⟨S1x512, f n⟩ : (s : Shape) × (s.Idx → EReal)))
    (h : Shape.Concatenates (xs.map (·.1)) S19x512 0) (m : Fin 19) (l : Fin 512) :
    concatenate S19x512 0 xs h (ix2 m l) = f m (ix2 (0 : Fin 1) l) := by
  subst hxs
  exact concatenate_ofFn_unit_apply 0 f h rfl rfl (ix2 m l) m rfl (ix2 (0 : Fin 1) l)
    (fun b hb => by fin_cases b <;> first | exact absurd rfl hb | rfl)

/-- The nineteen class rows stacked into a 19-by-512 block read, at (m, l), row m at column l. -/
theorem pay9_at (R : Fin 19 → EReal) (l : Fin 512)
    (v196 v201 v206 v211 v216 v221 v226 v231 v236 v241 v246 v251 v256 v261 : FVec Ideal S512 .f32)
    (v263 v264 v265 v266 v267 : FVec Ideal S1x512 .f32)
    (e0 : v263 (ix2 (0 : Fin 1) l) = R 0)
    (e1 : v264 (ix2 (0 : Fin 1) l) = R 1)
    (e2 : v265 (ix2 (0 : Fin 1) l) = R 2)
    (e3 : v266 (ix2 (0 : Fin 1) l) = R 3)
    (e4 : v267 (ix2 (0 : Fin 1) l) = R 4)
    (e5 : v196 (ix1 l) = R 5)
    (e6 : v201 (ix1 l) = R 6)
    (e7 : v206 (ix1 l) = R 7)
    (e8 : v211 (ix1 l) = R 8)
    (e9 : v216 (ix1 l) = R 9)
    (e10 : v221 (ix1 l) = R 10)
    (e11 : v226 (ix1 l) = R 11)
    (e12 : v231 (ix1 l) = R 12)
    (e13 : v236 (ix1 l) = R 13)
    (e14 : v241 (ix1 l) = R 14)
    (e15 : v246 (ix1 l) = R 15)
    (e16 : v251 (ix1 l) = R 16)
    (e17 : v256 (ix1 l) = R 17)
    (e18 : v261 (ix1 l) = R 18)
    (m : Fin 19) :
    k0_pay9 v196 v201 v206 v211 v216 v221 v226 v231 v236 v241 v246 v251 v256 v261 v263 v264 v265 v266 v267 (ix2 m l) = R m := by
  unfold k0_pay9
  refine (concat_rows ![v263,
      v264,
      v265,
      v266,
      v267,
      shapeCast S1x512 v196 shapeCasts_S512_S1x512,
      shapeCast S1x512 v201 shapeCasts_S512_S1x512,
      shapeCast S1x512 v206 shapeCasts_S512_S1x512,
      shapeCast S1x512 v211 shapeCasts_S512_S1x512,
      shapeCast S1x512 v216 shapeCasts_S512_S1x512,
      shapeCast S1x512 v221 shapeCasts_S512_S1x512,
      shapeCast S1x512 v226 shapeCasts_S512_S1x512,
      shapeCast S1x512 v231 shapeCasts_S512_S1x512,
      shapeCast S1x512 v236 shapeCasts_S512_S1x512,
      shapeCast S1x512 v241 shapeCasts_S512_S1x512,
      shapeCast S1x512 v246 shapeCasts_S512_S1x512,
      shapeCast S1x512 v251 shapeCasts_S512_S1x512,
      shapeCast S1x512 v256 shapeCasts_S512_S1x512,
      shapeCast S1x512 v261 shapeCasts_S512_S1x512] _ rfl _ m l).trans ?_
  fin_cases m
  · exact e0
  · exact e1
  · exact e2
  · exact e3
  · exact e4
  · exact (torow_at _ _ l).trans e5
  · exact (torow_at _ _ l).trans e6
  · exact (torow_at _ _ l).trans e7
  · exact (torow_at _ _ l).trans e8
  · exact (torow_at _ _ l).trans e9
  · exact (torow_at _ _ l).trans e10
  · exact (torow_at _ _ l).trans e11
  · exact (torow_at _ _ l).trans e12
  · exact (torow_at _ _ l).trans e13
  · exact (torow_at _ _ l).trans e14
  · exact (torow_at _ _ l).trans e15
  · exact (torow_at _ _ l).trans e16
  · exact (torow_at _ _ l).trans e17
  · exact (torow_at _ _ l).trans e18

/-! ## The gathers by select chains, the product and the index sum -/

/-- The first chunk's load. -/
theorem ldA_at (arg1 : Memref sig .tc .vmem S1024x512 .i32) (harg1 : arg1.IsWhole) (a : Vec Ideal S1024x512 .i32)
    (k : Fin k0_t1_loop.trips) (r : Fin 64) (l : Fin 512) :
    trip_k0_t1.sl.r (F := Ideal) arg1 (harg1.unread a) k (ix2 r l) = a (ix2 ⟨64 * k.val + r.val, chunk_lt k r⟩ l) :=
  chunk_at arg1 harg1 a k _ r l

/-- The second chunk's load. -/
theorem ldB_at (arg2 : Memref sig .tc .vmem S1024x512 .i32) (harg2 : arg2.IsWhole) (b : Vec Ideal S1024x512 .i32)
    (k : Fin k0_t1_loop.trips) (r : Fin 64) (l : Fin 512) :
    trip_k0_t1.sl.r_1 (F := Ideal) arg2 (harg2.unread b) k (ix2 r l) = b (ix2 ⟨64 * k.val + r.val, chunk_lt k r⟩ l) :=
  chunk_at arg2 harg2 b k _ r l

/-- The select chain over the first chunk, classes 0 to 8, at (r, l). -/
theorem gA_at (arg1 : Memref sig .tc .vmem S1024x512 .i32) (harg1 : arg1.IsWhole) (a : Vec Ideal S1024x512 .i32)
    (v5 v7 v9 v11 v13 v15 v17 v19 v21 : FVec Ideal S512 .f32)
    (k : Fin k0_t1_loop.trips) (r : Fin 64) (l : Fin 512) :
    trip_k0_t1.sl.v149 (F := Ideal) arg1 v5 v7 v9 v11 v13 v15 v17 v19 v21 (harg1.unread a) k (ix2 r l)
      = if a (ix2 ⟨64 * k.val + r.val, chunk_lt k r⟩ l) = 8#32 then v21 (ix1 l)
        else if a (ix2 ⟨64 * k.val + r.val, chunk_lt k r⟩ l) = 7#32 then v19 (ix1 l)
        else if a (ix2 ⟨64 * k.val + r.val, chunk_lt k r⟩ l) = 6#32 then v17 (ix1 l)
        else if a (ix2 ⟨64 * k.val + r.val, chunk_lt k r⟩ l) = 5#32 then v15 (ix1 l)
        else if a (ix2 ⟨64 * k.val + r.val, chunk_lt k r⟩ l) = 4#32 then v13 (ix1 l)
        else if a (ix2 ⟨64 * k.val + r.val, chunk_lt k r⟩ l) = 3#32 then v11 (ix1 l)
        else if a (ix2 ⟨64 * k.val + r.val, chunk_lt k r⟩ l) = 2#32 then v9 (ix1 l)
        else if a (ix2 ⟨64 * k.val + r.val, chunk_lt k r⟩ l) = 1#32 then v7 (ix1 l)
        else if a (ix2 ⟨64 * k.val + r.val, chunk_lt k r⟩ l) = 0#32 then v5 (ix1 l) else 0 := by
  simp only [trip_k0_t1.sl.v149, trip_k0_t1.sl.v146, trip_k0_t1.sl.v148, trip_k0_t1.sl.v147, trip_k0_t1.sl.v145,
    trip_k0_t1.sl.v139, trip_k0_t1.sl.v136, trip_k0_t1.sl.v138, trip_k0_t1.sl.v137, trip_k0_t1.sl.v135,
    trip_k0_t1.sl.v129, trip_k0_t1.sl.v126, trip_k0_t1.sl.v128, trip_k0_t1.sl.v127, trip_k0_t1.sl.v125,
    trip_k0_t1.sl.v119, trip_k0_t1.sl.v116, trip_k0_t1.sl.v118, trip_k0_t1.sl.v117, trip_k0_t1.sl.v115,
    trip_k0_t1.sl.v109, trip_k0_t1.sl.v106, trip_k0_t1.sl.v108, trip_k0_t1.sl.v107, trip_k0_t1.sl.v105,
    trip_k0_t1.sl.r_3, trip_k0_t1.sl.r, k0_pay13, sel_eq, row_at, chunk_at, broadcast_apply, Ideal.ofBits_def,
    Ideal.ofBits_zero_f32]
  rw [chunk_at arg1 harg1 a k _ r l]

/-- The select chain over the second chunk, classes 0 to 7, at (r, l). -/
theorem gB_at (arg2 : Memref sig .tc .vmem S1024x512 .i32) (harg2 : arg2.IsWhole) (b : Vec Ideal S1024x512 .i32)
    (v25 v27 : FVec Ideal S512 .f32) (v28 v30 v32 v34 v36 v38 : Vec Ideal S1x512 .f32)
    (k : Fin k0_t1_loop.trips) (r : Fin 64) (l : Fin 512) :
    trip_k0_t1.sl.v144 (F := Ideal) arg2 v25 v27 v28 v30 v32 v34 v36 v38 (harg2.unread b) k (ix2 r l)
      = if b (ix2 ⟨64 * k.val + r.val, chunk_lt k r⟩ l) = 7#32 then v38 (ix2 (0 : Fin 1) l)
        else if b (ix2 ⟨64 * k.val + r.val, chunk_lt k r⟩ l) = 6#32 then v36 (ix2 (0 : Fin 1) l)
        else if b (ix2 ⟨64 * k.val + r.val, chunk_lt k r⟩ l) = 5#32 then v34 (ix2 (0 : Fin 1) l)
        else if b (ix2 ⟨64 * k.val + r.val, chunk_lt k r⟩ l) = 4#32 then v32 (ix2 (0 : Fin 1) l)
        else if b (ix2 ⟨64 * k.val + r.val, chunk_lt k r⟩ l) = 3#32 then v30 (ix2 (0 : Fin 1) l)
        else if b (ix2 ⟨64 * k.val + r.val, chunk_lt k r⟩ l) = 2#32 then v28 (ix2 (0 : Fin 1) l)
        else if b (ix2 ⟨64 * k.val + r.val, chunk_lt k r⟩ l) = 1#32 then v27 (ix1 l)
        else if b (ix2 ⟨64 * k.val + r.val, chunk_lt k r⟩ l) = 0#32 then v25 (ix1 l) else 0 := by
  simp only [trip_k0_t1.sl.v144, trip_k0_t1.sl.v141, trip_k0_t1.sl.v143, trip_k0_t1.sl.v142, trip_k0_t1.sl.v135,
    trip_k0_t1.sl.v134, trip_k0_t1.sl.v131, trip_k0_t1.sl.v133, trip_k0_t1.sl.v132, trip_k0_t1.sl.v125,
    trip_k0_t1.sl.v124, trip_k0_t1.sl.v121, trip_k0_t1.sl.v123, trip_k0_t1.sl.v122, trip_k0_t1.sl.v115,
    trip_k0_t1.sl.v114, trip_k0_t1.sl.v111, trip_k0_t1.sl.v113, trip_k0_t1.sl.v112, trip_k0_t1.sl.v105,
    trip_k0_t1.sl.v104, trip_k0_t1.sl.v101, trip_k0_t1.sl.v103, trip_k0_t1.sl.v102, trip_k0_t1.sl.v100,
    trip_k0_t1.sl.r_2, trip_k0_t1.sl.r_1, k0_pay12, k0_pay1, k0_pay2, k0_pay3, k0_pay4, k0_pay5, k0_pay6,
    sel_eq, row_at, unrow_at, unrow_at', broadcast_apply, Ideal.ofBits_def, Ideal.ofBits_zero_f32]
  rw [chunk_at arg2 harg2 b k _ r l]

/-- The product of the two gathered probabilities, at (r, l). -/
theorem prod_at (arg1 arg2 : Memref sig .tc .vmem S1024x512 .i32) (harg1 : arg1.IsWhole) (harg2 : arg2.IsWhole)
    (a b : Vec Ideal S1024x512 .i32) (p q : Vec Ideal S10x512 .f32)
    (v5 v7 v9 v11 v13 v15 v17 v19 v21 v23 v25 v27 : FVec Ideal S512 .f32)
    (v28 v30 v32 v34 v36 v38 v40 v42 : Vec Ideal S1x512 .f32)
    (h5 : ∀ l : Fin 512, v5 (ix1 l) = p (ix2 (0 : Fin 10) l)) (h7 : ∀ l : Fin 512, v7 (ix1 l) = p (ix2 (1 : Fin 10) l)) (h9 : ∀ l : Fin 512, v9 (ix1 l) = p (ix2 (2 : Fin 10) l)) (h11 : ∀ l : Fin 512, v11 (ix1 l) = p (ix2 (3 : Fin 10) l)) (h13 : ∀ l : Fin 512, v13 (ix1 l) = p (ix2 (4 : Fin 10) l)) (h15 : ∀ l : Fin 512, v15 (ix1 l) = p (ix2 (5 : Fin 10) l)) (h17 : ∀ l : Fin 512, v17 (ix1 l) = p (ix2 (6 : Fin 10) l)) (h19 : ∀ l : Fin 512, v19 (ix1 l) = p (ix2 (7 : Fin 10) l)) (h21 : ∀ l : Fin 512, v21 (ix1 l) = p (ix2 (8 : Fin 10) l)) (h23 : ∀ l : Fin 512, v23 (ix1 l) = p (ix2 (9 : Fin 10) l)) (h25 : ∀ l : Fin 512, v25 (ix1 l) = q (ix2 (0 : Fin 10) l)) (h27 : ∀ l : Fin 512, v27 (ix1 l) = q (ix2 (1 : Fin 10) l)) (h28 : ∀ l : Fin 512, v28 (ix2 (0 : Fin 1) l) = q (ix2 (2 : Fin 10) l)) (h30 : ∀ l : Fin 512, v30 (ix2 (0 : Fin 1) l) = q (ix2 (3 : Fin 10) l)) (h32 : ∀ l : Fin 512, v32 (ix2 (0 : Fin 1) l) = q (ix2 (4 : Fin 10) l)) (h34 : ∀ l : Fin 512, v34 (ix2 (0 : Fin 1) l) = q (ix2 (5 : Fin 10) l)) (h36 : ∀ l : Fin 512, v36 (ix2 (0 : Fin 1) l) = q (ix2 (6 : Fin 10) l)) (h38 : ∀ l : Fin 512, v38 (ix2 (0 : Fin 1) l) = q (ix2 (7 : Fin 10) l)) (h40 : ∀ l : Fin 512, v40 (ix2 (0 : Fin 1) l) = q (ix2 (8 : Fin 10) l)) (h42 : ∀ l : Fin 512, v42 (ix2 (0 : Fin 1) l) = q (ix2 (9 : Fin 10) l))
    (k : Fin k0_t1_loop.trips) (r : Fin 64) (l : Fin 512) :
    trip_k0_t1.sl.r_4 (F := Ideal) arg1 arg2 v5 v7 v9 v11 v13 v15 v17 v19 v21 v23 v25 v27 v28 v30 v32 v34 v36 v38 v40 v42
        (harg1.unread a) (harg2.unread b) k (ix2 r l)
      = Cert.Ised.pickB p l (a (ix2 ⟨64 * k.val + r.val, chunk_lt k r⟩ l))
        * Cert.Ised.pickB q l (b (ix2 ⟨64 * k.val + r.val, chunk_lt k r⟩ l)) := by
  simp only [trip_k0_t1.sl.r_4, k0_pay16, k0_pay7, k0_pay8, mulf_apply, sel_eq, row_at, unrow_at, unrow_at', gA_at, gB_at, ldA_at, ldB_at,
    h5, h7, h9, h11, h13, h15, h17, h19, h21, h23, h25, h27, h28, h30, h32, h34, h36, h38, h40, h42]
  rw [pick_chain, pick_chain]

/-- The sum of the two index words, at (r, l). -/
theorem sum_at (arg1 arg2 : Memref sig .tc .vmem S1024x512 .i32) (harg1 : arg1.IsWhole) (harg2 : arg2.IsWhole)
    (a b : Vec Ideal S1024x512 .i32) (k : Fin k0_t1_loop.trips) (r : Fin 64) (l : Fin 512) :
    trip_k0_t1.sl.r_5 (F := Ideal) arg1 arg2 (harg1.unread a) (harg2.unread b) k (ix2 r l)
      = a (ix2 ⟨64 * k.val + r.val, chunk_lt k r⟩ l) + b (ix2 ⟨64 * k.val + r.val, chunk_lt k r⟩ l) := by
  show IntOp.addi (trip_k0_t1.sl.r (F := Ideal) arg1 (harg1.unread a) k (ix2 r l))
      (trip_k0_t1.sl.r_1 (F := Ideal) arg2 (harg2.unread b) k (ix2 r l)) = _
  rw [ldA_at, ldB_at]
  rfl

/-! ## The trip's contribution -/

/-- What trip `k` of the sample loop contributes to class `m`, column `l`: the sum over the trip's 64 samples
    (rows 64k .. 64k+63 of the index blocks `a`, `b`) of their terms; the twenty class rows the body holds are the rows
    of the transposed probability blocks `p` (first index) and `q` (second index). -/
theorem trip_contrib (arg1 arg2 : Memref sig .tc .vmem S1024x512 .i32) (harg1 : arg1.IsWhole) (harg2 : arg2.IsWhole)
    (a b : Vec Ideal S1024x512 .i32) (p q : Vec Ideal S10x512 .f32)
    (v5 v7 v9 v11 v13 v15 v17 v19 v21 v23 v25 v27 : FVec Ideal S512 .f32)
    (v28 v30 v32 v34 v36 v38 v40 v42 : Vec Ideal S1x512 .f32)
    (h5 : ∀ l : Fin 512, v5 (ix1 l) = p (ix2 (0 : Fin 10) l)) (h7 : ∀ l : Fin 512, v7 (ix1 l) = p (ix2 (1 : Fin 10) l)) (h9 : ∀ l : Fin 512, v9 (ix1 l) = p (ix2 (2 : Fin 10) l)) (h11 : ∀ l : Fin 512, v11 (ix1 l) = p (ix2 (3 : Fin 10) l)) (h13 : ∀ l : Fin 512, v13 (ix1 l) = p (ix2 (4 : Fin 10) l)) (h15 : ∀ l : Fin 512, v15 (ix1 l) = p (ix2 (5 : Fin 10) l)) (h17 : ∀ l : Fin 512, v17 (ix1 l) = p (ix2 (6 : Fin 10) l)) (h19 : ∀ l : Fin 512, v19 (ix1 l) = p (ix2 (7 : Fin 10) l)) (h21 : ∀ l : Fin 512, v21 (ix1 l) = p (ix2 (8 : Fin 10) l)) (h23 : ∀ l : Fin 512, v23 (ix1 l) = p (ix2 (9 : Fin 10) l)) (h25 : ∀ l : Fin 512, v25 (ix1 l) = q (ix2 (0 : Fin 10) l)) (h27 : ∀ l : Fin 512, v27 (ix1 l) = q (ix2 (1 : Fin 10) l)) (h28 : ∀ l : Fin 512, v28 (ix2 (0 : Fin 1) l) = q (ix2 (2 : Fin 10) l)) (h30 : ∀ l : Fin 512, v30 (ix2 (0 : Fin 1) l) = q (ix2 (3 : Fin 10) l)) (h32 : ∀ l : Fin 512, v32 (ix2 (0 : Fin 1) l) = q (ix2 (4 : Fin 10) l)) (h34 : ∀ l : Fin 512, v34 (ix2 (0 : Fin 1) l) = q (ix2 (5 : Fin 10) l)) (h36 : ∀ l : Fin 512, v36 (ix2 (0 : Fin 1) l) = q (ix2 (6 : Fin 10) l)) (h38 : ∀ l : Fin 512, v38 (ix2 (0 : Fin 1) l) = q (ix2 (7 : Fin 10) l)) (h40 : ∀ l : Fin 512, v40 (ix2 (0 : Fin 1) l) = q (ix2 (8 : Fin 10) l)) (h42 : ∀ l : Fin 512, v42 (ix2 (0 : Fin 1) l) = q (ix2 (9 : Fin 10) l))
    (k : Fin k0_t1_loop.trips) (m : Fin 19) (l : Fin 512) :
    trip_k0_t1.sl.v282 (F := Ideal) arg1 arg2 v5 v7 v9 v11 v13 v15 v17 v19 v21 v23 v25 v27 v28 v30 v32 v34 v36 v38 v40 v42
        (harg1.unread a) (harg2.unread b) k (ix2 m l)
      = ∑ r : Fin 64, Cert.Ised.termB a b p q l m ⟨64 * k.val + r.val, by have := k.isLt; have := k0_t1_abs.2.1; omega⟩ := by
  unfold trip_k0_t1.sl.v282
  refine (pay9_at (fun m : Fin 19 => ∑ r : Fin 64,
      if (trip_k0_t1.sl.r_5 (F := Ideal) arg1 arg2 (harg1.unread a) (harg2.unread b) k) (ix2 r l) = BitVec.ofNat 32 m.val
        then (trip_k0_t1.sl.r_4 (F := Ideal) arg1 arg2 v5 v7 v9 v11 v13 v15 v17 v19 v21 v23 v25 v27 v28 v30 v32 v34 v36 v38 v40 v42 (harg1.unread a) (harg2.unread b) k) (ix2 r l) else 0) l _ _ _ _ _ _ _ _ _ _ _ _ _ _ _ _ _ _ _
    (pay18_at _ _ _ _ _ _ _ l) (pay19_at _ _ _ _ _ _ _ l) (pay20_at _ _ _ _ _ _ _ l) (pay21_at _ _ _ _ _ _ _ l)
    (pay22_at _ _ _ _ _ _ _ l)
    (pay23_at _ _ l) (pay24_at _ _ l) (pay25_at _ _ l) (pay26_at _ _ l) (pay27_at _ _ l) (pay28_at _ _ l)
    (pay29_at _ _ l) (pay31_at _ _ l) (pay32_at _ _ l) (pay33_at _ _ l) (pay34_at _ _ l) (pay35_at _ _ l)
    (pay36_at _ _ l) (pay37_at _ _ l) m).trans ?_
  refine Finset.sum_congr rfl fun r _ => ?_
  show (if (trip_k0_t1.sl.r_5 (F := Ideal) arg1 arg2 (harg1.unread a) (harg2.unread b) k) (ix2 r l) = BitVec.ofNat 32 m.val then (trip_k0_t1.sl.r_4 (F := Ideal) arg1 arg2 v5 v7 v9 v11 v13 v15 v17 v19 v21 v23 v25 v27 v28 v30 v32 v34 v36 v38 v40 v42 (harg1.unread a) (harg2.unread b) k) (ix2 r l) else 0) = _
  rw [sum_at, prod_at arg1 arg2 harg1 harg2 a b p q v5 v7 v9 v11 v13 v15 v17 v19 v21 v23 v25 v27 v28 v30 v32 v34 v36 v38 v40 v42
    h5 h7 h9 h11 h13 h15 h17 h19 h21 h23 h25 h27 h28 h30 h32 h34 h36 h38 h40 h42 k r l]
  rfl

end Cert.Ised.Body

end
-- ==== Proof.EpilogueValue.lean ====
import proofs.«403822_j73005854097950_3_alg».proof.Proof.Spec
import proofs.«403822_j73005854097950_3_alg».proof.Proof.Gen.KernelIdeal.Loops
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

set_option maxRecDepth 16384

noncomputable section

namespace Cert.Ised.Body

open Idealize.ShloMosaic Idealize.ShloMosaic.TcCoe Idealize.ShloMosaic.ValueIdx Cert.KernelIdeal Cert.KernelIdeal.Gen

/-- The zero block the accumulator starts from. -/
theorem zero_apply (m : Fin 19) (l : Fin 512) : k0_pay43 (F := Ideal) (ix2 m l) = 0 := by
  unfold k0_pay43
  rw [shapeCast_self]
  exact Ideal.ofBits_zero_f32

/-- One trip's store: the accumulator plus the trip's contribution, entry by entry. -/
theorem accum_apply (a : Vec Ideal S19x512 .f32) (d : FVec Ideal S19x512 .f32) (m : Fin 19) (l : Fin 512) :
    k0_pay10 (F := Ideal) a d (ix2 m l) = a (ix2 m l) + d (ix2 m l) := by
  unfold k0_pay10
  rw [shapeCast_self]
  rfl

/-- The epilogue: every entry of a column over the larger of the column's Euclidean norm and the small constant. -/
theorem normalize_apply (v : Vec Ideal S19x512 .f32) (m : Fin 19) (l : Fin 512) :
    k0_pay11 (F := Ideal) v (ix2 m l)
      = Ideal.div (v (ix2 m l)) (max (Ideal.sqrt (∑ m' : Fin 19, v (ix2 m' l) * v (ix2 m' l))) Cert.Ised.eps) := by
  unfold k0_pay11
  show Ideal.div (v (ix2 m l)) _ = _
  congr 1
  -- the divisor at (m, l) is the one row's entry at column l
  refine (broadcastTo_1b_ab_apply _ broadcasts_S1x512_S19x512 m l).trans ?_
  refine congrArg (fun x => max (Ideal.sqrt x) Cert.Ised.eps) ?_
  -- under the root: the lane reduction at l, the sum over the nineteen rows of the squares in column l
  refine (shapeCast_a_1a_apply _ shapeCasts_S512_S1x512 (0 : Fin 1) l).trans ?_
  refine (Ideal.multiReduction_add_single (mulf v v) _ reduces_S19x512_S512 (.inl rfl) rfl (ix1 l)).trans ?_
  refine Finset.sum_congr rfl fun m' _ => ?_
  -- the reduced index l with the row coordinate m' put back is (m', l)
  have hi : reduces_S19x512_S512.lift (ix1 l) m' = ix2 m' l := by
    funext a
    match a with
    | ⟨0, _⟩ => rfl
    | ⟨1, _⟩ => rfl
  rw [hi]
  rfl

end Cert.Ised.Body

end
-- ==== Proof.LibChunkSum.lean ====
import Mathlib.Algebra.BigOperators.Fin
import Mathlib.Algebra.BigOperators.Intervals

/-!
  Sums over `Fin 1024` taken sixty-four indices at a time: the partial sum over the indices below `64 * n`,
  one more chunk, and all sixteen chunks.
-/

namespace Cert.Ised.ChunkSum

variable {M : Type*} [AddCommMonoid M]

/-- The function `f` continued by zero to all natural numbers. -/
def extend (f : Fin 1024 → M) : ℕ → M := fun i => if h : i < 1024 then f ⟨i, h⟩ else 0

theorem extend_val (f : Fin 1024 → M) (κ : Fin 1024) : extend f κ.val = f κ := by
  unfold extend
  rw [dif_pos κ.isLt]

/-- The partial sum over the indices below `N` is the sum of the continued function over `range N`. -/
theorem below_eq_range (f : Fin 1024 → M) (N : ℕ) (hN : N ≤ 1024) :
    (∑ κ : Fin 1024, if κ.val < N then f κ else 0) = ∑ i ∈ Finset.range N, extend f i := by
  have h1 : (∑ κ : Fin 1024, if κ.val < N then f κ else 0)
      = ∑ κ : Fin 1024, (fun i : ℕ => if i < N then extend f i else 0) κ.val := by
    refine Finset.sum_congr rfl (fun κ _ => ?_)
    simp only [extend_val]
  rw [h1, Fin.sum_univ_eq_sum_range (fun i : ℕ => if i < N then extend f i else 0) 1024,
    ← Finset.sum_filter]
  refine Finset.sum_congr ?_ (fun _ _ => rfl)
  ext i
  simp only [Finset.mem_filter, Finset.mem_range]
  omega

/-- No chunk yet: the empty partial sum. -/
theorem below_zero (f : Fin 1024 → M) : (∑ κ : Fin 1024, if κ.val < 64 * 0 then f κ else 0) = 0 := by
  simp

/-- One more chunk: the indices below `64 (n+1)` are those below `64 n` and the sixty-four from `64 n` on. -/
theorem below_succ (f : Fin 1024 → M) (n : ℕ) (hn : n < 16) :
    (∑ κ : Fin 1024, if κ.val < 64 * (n + 1) then f κ else 0)
      = (∑ κ : Fin 1024, if κ.val < 64 * n then f κ else 0) + ∑ r : Fin 64, f ⟨64 * n + r.val, by have := r.isLt; omega⟩ := by
  have hchunk : (∑ r : Fin 64, f ⟨64 * n + r.val, by have := r.isLt; omega⟩)
      = ∑ r ∈ Finset.range 64, extend f (64 * n + r) := by
    rw [← Fin.sum_univ_eq_sum_range (fun r : ℕ => extend f (64 * n + r)) 64]
    refine Finset.sum_congr rfl (fun r _ => ?_)
    exact (extend_val f ⟨64 * n + r.val, by have := r.isLt; omega⟩).symm
  rw [below_eq_range f (64 * (n + 1)) (by omega), below_eq_range f (64 * n) (by omega), hchunk,
    show 64 * (n + 1) = 64 * n + 64 by omega, Finset.sum_range_add]

/-- All sixteen chunks: the whole sum. -/
theorem below_all (f : Fin 1024 → M) : (∑ κ : Fin 1024, if κ.val < 64 * 16 then f κ else 0) = ∑ κ : Fin 1024, f κ := by
  refine Finset.sum_congr rfl (fun κ _ => ?_)
  exact if_pos (by have := κ.isLt; omega)

end Cert.Ised.ChunkSum
-- ==== Proof.BodyValue.lean ====
import proofs.«403822_j73005854097950_3_alg».proof.Proof.BodyRun
import proofs.«403822_j73005854097950_3_alg».proof.Proof.TripValue
import proofs.«403822_j73005854097950_3_alg».proof.Proof.EpilogueValue
import proofs.«403822_j73005854097950_3_alg».proof.Proof.LibChunkSum

set_option maxRecDepth 16384

noncomputable section

namespace Cert.Ised.Run

open Idealize.ShloMosaic Idealize.ShloMosaic.TcCoe Idealize.SL.Sem
open Idealize.ShloMosaic.ValueIdx Cert.KernelIdeal Cert.KernelIdeal.Gen Cert.Ised

/-- The sample loop makes sixteen trips. -/
theorem trips_eq : k0_t1_loop.trips = 16 := by decide

/-- After `n` trips the accumulator's entry (m, l) is the sum of the terms of the first `64 n` samples of column `l`:
    zero before the loop, and each trip adds the sum over its own sixty-four samples. -/
theorem accV_apply (arg1 arg2 : Memref sig .tc .vmem S1024x512 .i32) (harg1 : arg1.IsWhole) (harg2 : arg2.IsWhole)
    (a b : Vec Ideal S1024x512 .i32) (p q : Vec Ideal S10x512 .f32)
    (v5 : FVec Ideal S512 .f32) (v7 : FVec Ideal S512 .f32) (v9 : FVec Ideal S512 .f32) (v11 : FVec Ideal S512 .f32) (v13 : FVec Ideal S512 .f32) (v15 : FVec Ideal S512 .f32) (v17 : FVec Ideal S512 .f32) (v19 : FVec Ideal S512 .f32) (v21 : FVec Ideal S512 .f32) (v23 : FVec Ideal S512 .f32) (v25 : FVec Ideal S512 .f32) (v27 : FVec Ideal S512 .f32) (v28 : Vec Ideal S1x512 .f32) (v30 : Vec Ideal S1x512 .f32) (v32 : Vec Ideal S1x512 .f32) (v34 : Vec Ideal S1x512 .f32) (v36 : Vec Ideal S1x512 .f32) (v38 : Vec Ideal S1x512 .f32) (v40 : Vec Ideal S1x512 .f32) (v42 : Vec Ideal S1x512 .f32)
    (h5 : ∀ l : Fin 512, v5 (ix1 l) = p (ix2 (0 : Fin 10) l)) (h7 : ∀ l : Fin 512, v7 (ix1 l) = p (ix2 (1 : Fin 10) l)) (h9 : ∀ l : Fin 512, v9 (ix1 l) = p (ix2 (2 : Fin 10) l)) (h11 : ∀ l : Fin 512, v11 (ix1 l) = p (ix2 (3 : Fin 10) l)) (h13 : ∀ l : Fin 512, v13 (ix1 l) = p (ix2 (4 : Fin 10) l)) (h15 : ∀ l : Fin 512, v15 (ix1 l) = p (ix2 (5 : Fin 10) l)) (h17 : ∀ l : Fin 512, v17 (ix1 l) = p (ix2 (6 : Fin 10) l)) (h19 : ∀ l : Fin 512, v19 (ix1 l) = p (ix2 (7 : Fin 10) l)) (h21 : ∀ l : Fin 512, v21 (ix1 l) = p (ix2 (8 : Fin 10) l)) (h23 : ∀ l : Fin 512, v23 (ix1 l) = p (ix2 (9 : Fin 10) l)) (h25 : ∀ l : Fin 512, v25 (ix1 l) = q (ix2 (0 : Fin 10) l)) (h27 : ∀ l : Fin 512, v27 (ix1 l) = q (ix2 (1 : Fin 10) l)) (h28 : ∀ l : Fin 512, v28 (ix2 (0 : Fin 1) l) = q (ix2 (2 : Fin 10) l)) (h30 : ∀ l : Fin 512, v30 (ix2 (0 : Fin 1) l) = q (ix2 (3 : Fin 10) l)) (h32 : ∀ l : Fin 512, v32 (ix2 (0 : Fin 1) l) = q (ix2 (4 : Fin 10) l)) (h34 : ∀ l : Fin 512, v34 (ix2 (0 : Fin 1) l) = q (ix2 (5 : Fin 10) l)) (h36 : ∀ l : Fin 512, v36 (ix2 (0 : Fin 1) l) = q (ix2 (6 : Fin 10) l)) (h38 : ∀ l : Fin 512, v38 (ix2 (0 : Fin 1) l) = q (ix2 (7 : Fin 10) l)) (h40 : ∀ l : Fin 512, v40 (ix2 (0 : Fin 1) l) = q (ix2 (8 : Fin 10) l)) (h42 : ∀ l : Fin 512, v42 (ix2 (0 : Fin 1) l) = q (ix2 (9 : Fin 10) l))
    (m : Fin 19) (l : Fin 512) :
    ∀ n, n ≤ 16 →
      accV (F := Ideal) arg1 arg2 v5 v7 v9 v11 v13 v15 v17 v19 v21 v23 v25 v27 v28 v30 v32 v34 v36 v38 v40 v42 (harg1.unread a) (harg2.unread b) n (ix2 m l)
        = ∑ κ : Fin 1024, if κ.val < 64 * n then termB a b p q l m κ else 0
  | 0, _ => by
    rw [ChunkSum.below_zero]
    exact Body.zero_apply m l
  | n + 1, hn => by
    have hlt : n < k0_t1_loop.trips := by rw [trips_eq]; omega
    rw [accV, dif_pos hlt, Body.accum_apply,
      accV_apply arg1 arg2 harg1 harg2 a b p q v5 v7 v9 v11 v13 v15 v17 v19 v21 v23 v25 v27 v28 v30 v32 v34 v36 v38 v40 v42 h5 h7 h9 h11 h13 h15 h17 h19 h21 h23 h25 h27 h28 h30 h32 h34 h36 h38 h40 h42 m l n (by omega),
      Body.trip_contrib arg1 arg2 harg1 harg2 a b p q v5 v7 v9 v11 v13 v15 v17 v19 v21 v23 v25 v27 v28 v30 v32 v34 v36 v38 v40 v42 h5 h7 h9 h11 h13 h15 h17 h19 h21 h23 h25 h27 h28 h30 h32 h34 h36 h38 h40 h42 ⟨n, hlt⟩ m l,
      ChunkSum.below_succ (fun κ => termB a b p q l m κ) n (by omega)]

/-- The body's output block is the block function `GB` of the four input blocks. -/
theorem block_eq (c : Dev nD) (i : grid0.Coords) (arg1 : Memref sig .tc .vmem S1024x512 .i32) (harg1 : arg1.IsWhole) (arg2 : Memref sig .tc .vmem S1024x512 .i32) (harg2 : arg2.IsWhole) (arg3 : Memref sig .tc .vmem S10x512 .f32) (harg3 : arg3.IsWhole) (arg4 : Memref sig .tc .vmem S10x512 .f32) (harg4 : arg4.IsWhole) (arg5 : Memref sig .tc .vmem S19x512 .f32) (harg5 : arg5.IsWhole) (arg6 : Memref sig .tc .vmem S19x512 .f32) (harg6 : arg6.IsWhole)     (x0 : Vec Ideal S1024x512 .i32) (x1 : Vec Ideal S1024x512 .i32) (x2 : Vec Ideal S10x512 .f32) (x3 : Vec Ideal S10x512 .f32) :
    out0_A_4 (F := Ideal) c i arg1 harg1 arg2 harg2 arg3 harg3 arg4 harg4 arg5 harg5 arg6 harg6 x0 x1 x2 x3 = GB x0 x1 x2 x3 := by
  rw [out_eq]
  funext j
  obtain ⟨m, l, rfl⟩ : ∃ (m : Fin 19) (l : Fin 512), j = ix2 m l := ⟨j 0, j 1, eq_ix2 j⟩
  rw [Body.normalize_apply]
  have hA : ∀ m' : Fin 19, accV (F := Ideal) arg1 arg2 (k0_pay44 (rowLoad arg3 harg3 x2 0 inb_S10x512_S1x512_0_0)) (k0_pay45 (rowLoad arg3 harg3 x2 1 inb_S10x512_S1x512_1_0)) (k0_pay46 (rowLoad arg3 harg3 x2 2 inb_S10x512_S1x512_2_0)) (k0_pay47 (rowLoad arg3 harg3 x2 3 inb_S10x512_S1x512_3_0)) (k0_pay48 (rowLoad arg3 harg3 x2 4 inb_S10x512_S1x512_4_0)) (k0_pay49 (rowLoad arg3 harg3 x2 5 inb_S10x512_S1x512_5_0)) (k0_pay50 (rowLoad arg3 harg3 x2 6 inb_S10x512_S1x512_6_0)) (k0_pay51 (rowLoad arg3 harg3 x2 7 inb_S10x512_S1x512_7_0)) (k0_pay52 (rowLoad arg3 harg3 x2 8 inb_S10x512_S1x512_8_0)) (k0_pay53 (rowLoad arg3 harg3 x2 9 inb_S10x512_S1x512_9_0)) (k0_pay54 (rowLoad arg4 harg4 x3 0 inb_S10x512_S1x512_0_0)) (k0_pay55 (rowLoad arg4 harg4 x3 1 inb_S10x512_S1x512_1_0)) (rowLoad arg4 harg4 x3 2 inb_S10x512_S1x512_2_0) (rowLoad arg4 harg4 x3 3 inb_S10x512_S1x512_3_0) (rowLoad arg4 harg4 x3 4 inb_S10x512_S1x512_4_0) (rowLoad arg4 harg4 x3 5 inb_S10x512_S1x512_5_0) (rowLoad arg4 harg4 x3 6 inb_S10x512_S1x512_6_0) (rowLoad arg4 harg4 x3 7 inb_S10x512_S1x512_7_0) (rowLoad arg4 harg4 x3 8 inb_S10x512_S1x512_8_0) (rowLoad arg4 harg4 x3 9 inb_S10x512_S1x512_9_0) (harg1.unread x0) (harg2.unread x1) k0_t1_loop.trips (ix2 m' l)
      = accB x0 x1 x2 x3 l m' := fun m' => by
    rw [trips_eq, accV_apply arg1 arg2 harg1 harg2 x0 x1 x2 x3 (k0_pay44 (rowLoad arg3 harg3 x2 0 inb_S10x512_S1x512_0_0)) (k0_pay45 (rowLoad arg3 harg3 x2 1 inb_S10x512_S1x512_1_0)) (k0_pay46 (rowLoad arg3 harg3 x2 2 inb_S10x512_S1x512_2_0)) (k0_pay47 (rowLoad arg3 harg3 x2 3 inb_S10x512_S1x512_3_0)) (k0_pay48 (rowLoad arg3 harg3 x2 4 inb_S10x512_S1x512_4_0)) (k0_pay49 (rowLoad arg3 harg3 x2 5 inb_S10x512_S1x512_5_0)) (k0_pay50 (rowLoad arg3 harg3 x2 6 inb_S10x512_S1x512_6_0)) (k0_pay51 (rowLoad arg3 harg3 x2 7 inb_S10x512_S1x512_7_0)) (k0_pay52 (rowLoad arg3 harg3 x2 8 inb_S10x512_S1x512_8_0)) (k0_pay53 (rowLoad arg3 harg3 x2 9 inb_S10x512_S1x512_9_0)) (k0_pay54 (rowLoad arg4 harg4 x3 0 inb_S10x512_S1x512_0_0)) (k0_pay55 (rowLoad arg4 harg4 x3 1 inb_S10x512_S1x512_1_0)) (rowLoad arg4 harg4 x3 2 inb_S10x512_S1x512_2_0) (rowLoad arg4 harg4 x3 3 inb_S10x512_S1x512_3_0) (rowLoad arg4 harg4 x3 4 inb_S10x512_S1x512_4_0) (rowLoad arg4 harg4 x3 5 inb_S10x512_S1x512_5_0) (rowLoad arg4 harg4 x3 6 inb_S10x512_S1x512_6_0) (rowLoad arg4 harg4 x3 7 inb_S10x512_S1x512_7_0) (rowLoad arg4 harg4 x3 8 inb_S10x512_S1x512_8_0) (rowLoad arg4 harg4 x3 9 inb_S10x512_S1x512_9_0)
      (fun l => (flat_apply _ l).trans (rowLoad_apply arg3 harg3 x2 0 _ (by decide) l))
      (fun l => (flat_apply _ l).trans (rowLoad_apply arg3 harg3 x2 1 _ (by decide) l))
      (fun l => (flat_apply _ l).trans (rowLoad_apply arg3 harg3 x2 2 _ (by decide) l))
      (fun l => (flat_apply _ l).trans (rowLoad_apply arg3 harg3 x2 3 _ (by decide) l))
      (fun l => (flat_apply _ l).trans (rowLoad_apply arg3 harg3 x2 4 _ (by decide) l))
      (fun l => (flat_apply _ l).trans (rowLoad_apply arg3 harg3 x2 5 _ (by decide) l))
      (fun l => (flat_apply _ l).trans (rowLoad_apply arg3 harg3 x2 6 _ (by decide) l))
      (fun l => (flat_apply _ l).trans (rowLoad_apply arg3 harg3 x2 7 _ (by decide) l))
      (fun l => (flat_apply _ l).trans (rowLoad_apply arg3 harg3 x2 8 _ (by decide) l))
      (fun l => (flat_apply _ l).trans (rowLoad_apply arg3 harg3 x2 9 _ (by decide) l))
      (fun l => (flat_apply _ l).trans (rowLoad_apply arg4 harg4 x3 0 _ (by decide) l))
      (fun l => (flat_apply _ l).trans (rowLoad_apply arg4 harg4 x3 1 _ (by decide) l))
      (fun l => rowLoad_apply arg4 harg4 x3 2 _ (by decide) l)
      (fun l => rowLoad_apply arg4 harg4 x3 3 _ (by decide) l)
      (fun l => rowLoad_apply arg4 harg4 x3 4 _ (by decide) l)
      (fun l => rowLoad_apply arg4 harg4 x3 5 _ (by decide) l)
      (fun l => rowLoad_apply arg4 harg4 x3 6 _ (by decide) l)
      (fun l => rowLoad_apply arg4 harg4 x3 7 _ (by decide) l)
      (fun l => rowLoad_apply arg4 harg4 x3 8 _ (by decide) l)
      (fun l => rowLoad_apply arg4 harg4 x3 9 _ (by decide) l)
      m' l 16 (Nat.le_refl _), ChunkSum.below_all]
    rfl
  simp only [hA]
  rfl

/-- At every grid point the body leaves in the output's staging buffer the block function of the point's four input blocks. -/
theorem outsAt_eq (m : (ℓ : Loc nD τ sig) → Buf (Elt Ideal) ℓ) (c : Dev nD) (t : Fin cfg0.N) :
    outsAt0 (F := Ideal) m c t = GB (iblk m c 0 t) (iblk m c 1 t) (iblk m c 2 t) (iblk m c 3 t) := by
  unfold outsAt0
  exact block_eq c (grid0.coords t) (ms0_0 t) (hs0_0 t) (ms0_1 t) (hs0_1 t) (ms0_2 t) (hs0_2 t) (ms0_3 t) (hs0_3 t)
    (ms0_4 t) (hs0_4 t) scM0_0 (Memref.isWhole_whole _) (iblk m c 0 t) (iblk m c 1 t) (iblk m c 2 t) (iblk m c 3 t)

end Cert.Ised.Run

end
-- ==== Proof.KernelRun.lean ====
import proofs.«403822_j73005854097950_3_alg».proof.Proof.Spec
import proofs.«403822_j73005854097950_3_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

namespace Cert.Ised.KernelRun

open Idealize.ShloMosaic Idealize.ShloMosaic.TcCoe Idealize.SL.Sem
open Idealize.ShloMosaic.ValueIdx Cert.KernelIdeal Cert.KernelIdeal.Gen
open Idealize.ShloMosaic.Pipeline (Dat)

/-! ## One column block of the function is the function on that block's columns

Grid point `t` sees batch columns `512 t … 512 t + 511`. If the four blocks it is given are the index arrays
restricted to those columns and the probability arrays transposed and restricted to them, every quantity of the block
function is the array function's at batch column `512 t + l`. -/

section Blocks

variable (x1 x2 : SX.Idx → EReal) (i1 i2 : SI.Idx → BitVec 32) (t : ℕ)
variable (a b : SIB.Idx → BitVec 32) (p q : SXB.Idx → EReal)

/-- A selected class probability, read in the transposed block, is the one read in the array. -/
theorem pickB_eq (x : SX.Idx → EReal) (p : SXB.Idx → EReal) (l : Fin 512) (col : Fin 4096) (w : BitVec 32)
    (hp : ∀ (cl : Fin 10), p (ix2 cl l) = x (ix2 col cl)) : pickB p l w = pick x col w := by
  unfold pickB pick
  by_cases h : w.toNat < 10
  · rw [dif_pos h, dif_pos h, hp]
  · rw [dif_neg h, dif_neg h]

/-- One sample's contribution, on blocks and on arrays. -/
theorem termB_eq (l : Fin 512) (col : Fin 4096)
    (ha : ∀ κ : Fin 1024, a (ix2 κ l) = i1 (ix2 κ col)) (hb : ∀ κ : Fin 1024, b (ix2 κ l) = i2 (ix2 κ col))
    (hp : ∀ cl : Fin 10, p (ix2 cl l) = x1 (ix2 col cl)) (hq : ∀ cl : Fin 10, q (ix2 cl l) = x2 (ix2 col cl))
    (mm : Fin 19) (κ : Fin 1024) : termB a b p q l mm κ = term x1 x2 i1 i2 col mm κ := by
  unfold termB term
  rw [ha κ, hb κ, pickB_eq x1 p l col _ hp, pickB_eq x2 q l col _ hq]

/-- The accumulated value of a class, on blocks and on arrays. -/
theorem accB_eq (l : Fin 512) (col : Fin 4096)
    (ha : ∀ κ : Fin 1024, a (ix2 κ l) = i1 (ix2 κ col)) (hb : ∀ κ : Fin 1024, b (ix2 κ l) = i2 (ix2 κ col))
    (hp : ∀ cl : Fin 10, p (ix2 cl l) = x1 (ix2 col cl)) (hq : ∀ cl : Fin 10, q (ix2 cl l) = x2 (ix2 col cl))
    (mm : Fin 19) : accB a b p q l mm = acc x1 x2 i1 i2 col mm := by
  unfold accB acc
  exact Finset.sum_congr rfl fun κ _ => termB_eq x1 x2 i1 i2 a b p q l col ha hb hp hq mm κ

/-- The block of results at row `j 0` and column `j 1` is the result array at batch column `col` and class `j 0`,
    when `col` is the batch column the block's column `j 1` stands for. -/
theorem GB_eq (j : SOB.Idx) (i : SO.Idx) (hi1 : i 1 = j 0)
    (ha : ∀ κ : Fin 1024, a (ix2 κ (j 1)) = i1 (ix2 κ (i 0))) (hb : ∀ κ : Fin 1024, b (ix2 κ (j 1)) = i2 (ix2 κ (i 0)))
    (hp : ∀ cl : Fin 10, p (ix2 cl (j 1)) = x1 (ix2 (i 0) cl)) (hq : ∀ cl : Fin 10, q (ix2 cl (j 1)) = x2 (ix2 (i 0) cl)) :
    GB a b p q j = G x1 x2 i1 i2 i := by
  unfold GB G den
  have e : ∀ mm : Fin 19, accB a b p q (j 1) mm = acc x1 x2 i1 i2 (i 0) mm :=
    fun mm => accB_eq x1 x2 i1 i2 a b p q (j 1) (i 0) ha hb hp hq mm
  rw [hi1, e (j 0)]
  simp only [e]

end Blocks

/-! ## The arrays and blocks of the run, at their literal types -/

section Run

variable (m : (ℓ : Loc nD τ sig) → Buf (Elt Ideal) ℓ)

/-- The two probability arrays and the two index arrays core `c` is launched with. -/
abbrev ax1 (c : Dev nD) : SX.Idx → EReal := m ((c.tc : Thread nD τ).loc main_arg0)
abbrev ax2 (c : Dev nD) : SX.Idx → EReal := m ((c.tc : Thread nD τ).loc main_arg1)
abbrev ai1 (c : Dev nD) : SI.Idx → BitVec 32 := m ((c.tc : Thread nD τ).loc main_arg2)
abbrev ai2 (c : Dev nD) : SI.Idx → BitVec 32 := m ((c.tc : Thread nD τ).loc main_arg3)

/-- The four input blocks grid point `t` is given: two index blocks, two transposed probability blocks. -/
abbrev bi1 (c : Dev nD) (t : Fin cfg0.N) : SIB.Idx → BitVec 32 := iblk m c 0 t
abbrev bi2 (c : Dev nD) (t : Fin cfg0.N) : SIB.Idx → BitVec 32 := iblk m c 1 t
abbrev bx1 (c : Dev nD) (t : Fin cfg0.N) : SXB.Idx → EReal := iblk m c 2 t
abbrev bx2 (c : Dev nD) (t : Fin cfg0.N) : SXB.Idx → EReal := iblk m c 3 t

/-- The array of results before the last transpose: row `j 0` is the class, column `j 1` the batch column. -/
abbrev GT (x1 x2 : SX.Idx → EReal) (i1 i2 : SI.Idx → BitVec 32) : S19x4096.Idx → EReal :=
  fun j => Cert.Ised.G x1 x2 i1 i2 (ix2 (j 1) (j 0))

/-- Every window's block index at point `t` is `(0, t)`: all rows, column block `t`. -/
theorem blockIndex_eq : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- The region finds the first probability array transposed: ten rows of 4096 columns. -/
theorem probT1_eq (c : Dev nD) : (V m c main_v0 : S10x4096.Idx → EReal)
    = transpose S10x4096 [1, 0] (ax1 m c) transposes_S4096x10_S10x4096_1_0 := by
  show StableHlo.after hostOps0 (fun b => m (c, b)) (Proc.devRef .tc main_v0) = _
  after_results

/-- And the second one. -/
theorem probT2_eq (c : Dev nD) : (V m c main_v1 : S10x4096.Idx → EReal)
    = transpose S10x4096 [1, 0] (ax2 m c) transposes_S4096x10_S10x4096_1_0 := by
  show StableHlo.after hostOps0 (fun b => m (c, b)) (Proc.devRef .tc main_v1) = _
  after_results

/-- The first index block at point `t`: all 1024 samples of the batch columns `512 t + l`. -/
theorem bi1_apply (c : Dev nD) (t : Fin cfg0.N) (κ : Fin 1024) (l : Fin 512) (col : Fin 4096)
    (hcol : col.val = 512 * t.val + l.val) : bi1 m c t (ix2 κ l) = ai1 m c (ix2 κ col) := by
  obtain ⟨e0, e1, -⟩ := blockIndex_eq t
  show V m c main_arg2 (((cfg0.win 0).blk t).view.emb (ix2 κ l)) = _
  rw [V_main_arg2]
  refine congrArg _ (funext fun a => Fin.ext ?_)
  match a with
  | ⟨0, _⟩ => show win0_0.index t (0 : Fin 2) * 1024 + 1 * κ.val = κ.val; omega
  | ⟨1, _⟩ => show win0_0.index t (1 : Fin 2) * 512 + 1 * l.val = col.val; omega

/-- The second index block likewise. -/
theorem bi2_apply (c : Dev nD) (t : Fin cfg0.N) (κ : Fin 1024) (l : Fin 512) (col : Fin 4096)
    (hcol : col.val = 512 * t.val + l.val) : bi2 m c t (ix2 κ l) = ai2 m c (ix2 κ col) := by
  obtain ⟨-, -, e0, e1, -⟩ := blockIndex_eq t
  show V m c main_arg3 (((cfg0.win 1).blk t).view.emb (ix2 κ l)) = _
  rw [V_main_arg3]
  refine congrArg _ (funext fun a => Fin.ext ?_)
  match a with
  | ⟨0, _⟩ => show win0_1.index t (0 : Fin 2) * 1024 + 1 * κ.val = κ.val; omega
  | ⟨1, _⟩ => show win0_1.index t (1 : Fin 2) * 512 + 1 * l.val = col.val; omega

/-- The first probability block at point `t`: class `cl` of batch column `512 t + l`, the array read transposed. -/
theorem bx1_apply (c : Dev nD) (t : Fin cfg0.N) (cl : Fin 10) (l : Fin 512) (col : Fin 4096)
    (hcol : col.val = 512 * t.val + l.val) : bx1 m c t (ix2 cl l) = ax1 m c (ix2 col cl) := by
  obtain ⟨-, -, -, -, e0, e1, -⟩ := blockIndex_eq t
  show V m c main_v0 (((cfg0.win 2).blk t).view.emb (ix2 cl l)) = _
  rw [probT1_eq]
  exact transpose_apply _ _ _ _ _ fun b => match b with
    | ⟨0, _⟩ => by show cl.val = win0_2.index t (0 : Fin 2) * 10 + 1 * cl.val; omega
    | ⟨1, _⟩ => by show col.val = win0_2.index t (1 : Fin 2) * 512 + 1 * l.val; omega

/-- The second probability block likewise. -/
theorem bx2_apply (c : Dev nD) (t : Fin cfg0.N) (cl : Fin 10) (l : Fin 512) (col : Fin 4096)
    (hcol : col.val = 512 * t.val + l.val) : bx2 m c t (ix2 cl l) = ax2 m c (ix2 col cl) := by
  obtain ⟨-, -, -, -, -, -, e0, e1, -⟩ := blockIndex_eq t
  show V m c main_v1 (((cfg0.win 3).blk t).view.emb (ix2 cl l)) = _
  rw [probT2_eq]
  exact transpose_apply _ _ _ _ _ fun b => match b with
    | ⟨0, _⟩ => by show cl.val = win0_3.index t (0 : Fin 2) * 10 + 1 * cl.val; omega
    | ⟨1, _⟩ => by show col.val = win0_3.index t (1 : Fin 2) * 512 + 1 * l.val; omega

/-! ## What each point writes back, and the whole array of results -/

/-- WHAT POINT `t` WRITES BACK is block `t` of the array of results: the block function of the point's four blocks
    is the array function on the point's 512 batch columns. -/
theorem writeback_eq
    (hout : ∀ (m : (ℓ : Loc nD τ sig) → Buf (Elt Ideal) ℓ) (c : Dev nD) (t : Fin cfg0.N),
      outsAt0 (F := Ideal) m c t = Cert.Ised.GB (iblk m c 0 t) (iblk m c 1 t) (iblk m c 2 t) (iblk m c 3 t))
    (c : Dev nD) (t : Fin cfg0.N) :
    (dats m 0 c).flushed 4 t
      = ((cfg0.win 4).blk t).view.read (Elt Ideal) (GT (ax1 m c) (ax2 m c) (ai1 m c) (ai2 m c)) := by
  show (cfg0.win 4).cut (grid0.coords t) ((dats m 0 c).after 4 t) = _
  rw [after0_4, hout]
  obtain ⟨-, -, -, -, -, -, -, -, e0, e1⟩ := blockIndex_eq t
  have hN : cfg0.N = 8 := N_0
  have ht : t.val < 8 := hN ▸ t.isLt
  funext j
  have hj0 : (j 0).val < 19 := (j 0).isLt
  have hj1 : (j 1).val < 512 := (j 1).isLt
  have hcol : 512 * t.val + (j 1).val < 4096 := by omega
  refine (GB_eq (ax1 m c) (ax2 m c) (ai1 m c) (ai2 m c) (bi1 m c t) (bi2 m c t) (bx1 m c t) (bx2 m c t)
    ((cfg0.win 4).xinj (grid0.coords t) j) (ix2 ⟨512 * t.val + (j 1).val, hcol⟩ ⟨(j 0).val, hj0⟩) rfl
    (fun κ => bi1_apply m c t κ _ _ rfl) (fun κ => bi2_apply m c t κ _ _ rfl)
    (fun cl => bx1_apply m c t cl _ _ rfl) (fun cl => bx2_apply m c t cl _ _ rfl)).trans ?_
  show G (ax1 m c) (ax2 m c) (ai1 m c) (ai2 m c) _
    = G (ax1 m c) (ax2 m c) (ai1 m c) (ai2 m c)
        (ix2 ((((cfg0.win 4).blk t).view.emb j) 1) ((((cfg0.win 4).blk t).view.emb j) 0))
  refine congrArg _ (funext fun a => Fin.ext ?_)
  match a with
  | ⟨0, _⟩ => show 512 * t.val + (j 1).val = win0_4.index t (1 : Fin 2) * 512 + 1 * (j 1).val; omega
  | ⟨1, _⟩ => show (j 0).val = win0_4.index t (0 : Fin 2) * 19 + 1 * (j 0).val; omega

/-- An index of the array of results is in point `t`'s block iff each coordinate is in the block's range on its axis. -/
theorem mem_block_iff (t : Fin cfg0.N) (i : S19x4096.Idx) :
    i ∈ ((cfg0.win 4).blk t).view.set ↔ ∀ a : Fin 2, win0_4.index t a * S19x512.size a ≤ (i a).val
      ∧ (i a).val < win0_4.index t a * S19x512.size a + S19x512.size a := by
  show i ∈ ((View.whole main_v2).slice (win0_4.rect t)).set ↔ _
  rw [View.set_slice_whole, Rect.mem_set_unit]
  exact Iff.rfl

/-- The eight blocks tile the array: batch column `b` lies in the block of point `b / 512`. -/
theorem blocks_tile (i : S19x4096.Idx) :
    ∃ t : Fin cfg0.N, (cfg0.win 4).flush t = true ∧ i ∈ ((cfg0.win 4).blk t).view.set := by
  have hN : cfg0.N = 8 := N_0
  have hi0 : (i 0).val < 19 := (i 0).isLt
  have hi1 : (i 1).val < 4096 := (i 1).isLt
  let t : Fin cfg0.N := ⟨(i 1).val / 512, by omega⟩
  have htv : t.val = (i 1).val / 512 := rfl
  obtain ⟨-, -, -, -, -, -, -, -, e0, e1⟩ := blockIndex_eq t
  refine ⟨t, flush0_4 t, ?_⟩
  rw [mem_block_iff]
  intro a
  match a with
  | ⟨0, _⟩ => show win0_4.index t (0 : Fin 2) * 19 ≤ (i 0).val ∧ (i 0).val < win0_4.index t (0 : Fin 2) * 19 + 19; omega
  | ⟨1, _⟩ => show win0_4.index t (1 : Fin 2) * 512 ≤ (i 1).val ∧ (i 1).val < win0_4.index t (1 : Fin 2) * 512 + 512; omega

/-- THE ARRAY OF RESULTS after the region: the function of the four argument arrays, class by batch column. -/
theorem results_eq
    (hout : ∀ (m : (ℓ : Loc nD τ sig) → Buf (Elt Ideal) ℓ) (c : Dev nD) (t : Fin cfg0.N),
      outsAt0 (F := Ideal) m c t = Cert.Ised.GB (iblk m c 0 t) (iblk m c 1 t) (iblk m c 2 t) (iblk m c 3 t))
    (c : Dev nD) :
    (dats m 0 c).arrAt 4 cfg0.N = GT (ax1 m c) (ax2 m c) (ai1 m c) (ai2 m c) :=
  (dats m 0 c).arrAt_eq_of_cover 4 (GT (ax1 m c) (ax2 m c) (ai1 m c) (ai2 m c))
    (fun t _ => writeback_eq m hout c t) blocks_tile

/-- The transposed array of results is the result array of the specification. -/
theorem transpose_GT (x1 x2 : SX.Idx → EReal) (i1 i2 : SI.Idx → BitVec 32) :
    transpose S4096x19 [1, 0] (GT x1 x2 i1 i2) transposes_S19x4096_S4096x19_1_0 = G x1 x2 i1 i2 := by
  funext j
  refine (transpose_apply _ _ _ j (ix2 (j 1) (j 0)) fun b => match b with
    | ⟨0, _⟩ => rfl
    | ⟨1, _⟩ => rfl).trans ?_
  show G x1 x2 i1 i2 (ix2 (j 0) (j 1)) = G x1 x2 i1 i2 j
  exact congrArg _ (eq_ix2 j).symm

/-- The lines after the region leave in the result array the transposed array of results: the specification's `G`. -/
theorem result_eq
    (hout : ∀ (m : (ℓ : Loc nD τ sig) → Buf (Elt Ideal) ℓ) (c : Dev nD) (t : Fin cfg0.N),
      outsAt0 (F := Ideal) m c t = Cert.Ised.GB (iblk m c 0 t) (iblk m c 1 t) (iblk m c 2 t) (iblk m c 3 t))
    (c : Dev nD) :
    Pipeline.afterTail₀ cfgs (dats m) 0 (V0 m) [hostOps1] c main_v3
      = G (ax1 m c) (ax2 m c) (ai1 m c) (ai2 m c) := by
  unfold Pipeline.afterTail₀
  show StableHlo.after hostOps1 _ (Proc.devRef .tc main_v3) = _
  after_results
  exact (congrArg (fun X => transpose S4096x19 [1, 0] X transposes_S19x4096_S4096x19_1_0)
    ((Pipeline.withArrays_arr spec0 launch0.win.arr_inj c _ _ 4).trans (results_eq m hout c))).trans (transpose_GT _ _ _ _)

end Run

/-- If at every grid point the body leaves in the output's staging buffer the block function `GB` of the point's four
    input blocks, then the idealized kernel program ends with its result array at `G` of its four argument arrays
    (the two probability arrays enter transposed, the 19×4096 array of result blocks leaves transposed), the arguments unchanged. -/
theorem run_G
    (hout : ∀ (m : (ℓ : Loc nD τ sig) → Buf (Elt Ideal) ℓ) (c : Dev nD) (t : Fin cfg0.N),
      outsAt0 (F := Ideal) m c t = Cert.Ised.GB (iblk m c 0 t) (iblk m c 1 t) (iblk m c 2 t) (iblk m c 3 t))
    (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3)
          = Cert.Ised.G (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  exact (θ_run defs _ _).mono (fun r h c => ⟨
      ((h c).2 main_v3 (Pipeline.mem_restRefs_of main_v3 (by decide) (by decide))).trans (result_eq m hout c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 0).trans (((dats m 0 c).arrAt_in 0 rfl _).trans ((A_eq m c 0).trans (V_main_arg2 m c))),
      ((h c).1 1).trans (((dats m 0 c).arrAt_in 1 rfl _).trans ((A_eq m c 1).trans (V_main_arg3 m c)))⟩)
    (run_main m ρ)

end Cert.Ised.KernelRun

end
-- ==== Proof.RefValue.lean ====
import proofs.«403822_j73005854097950_3_alg».proof.Proof.Spec
import proofs.«403822_j73005854097950_3_alg».proof.Proof.Gen.ReferenceIdeal.Read
import Idealize.ShloMosaic.Lib.ValueIdx
import Idealize.ShloMosaic.PureOps.Ideal.Laws
import Idealize.ShloMosaic.Lib.StableHlo.Predicate

noncomputable section

namespace Cert.Ised.Ref

open Idealize.ShloMosaic Idealize.ShloMosaic.ValueIdx Cert.ReferenceIdeal Cert.ReferenceIdeal.Read
open Idealize.ShloMosaic.StableHlo.Predicate

/-! ## Words, start indices, the two gathers and the scatter, read at an index -/

section Readings

/-- A signed "less than zero" test of a word below 2³¹ is false. -/
theorem slt_zero_of_small (w : BitVec 32) (hw : w.toNat < 2 ^ 31) : IntOp.cmpi .slt w 0#32 = 0#1 := by
  refine eq_zero_of_ne_one fun h => ?_
  have := (slt_iff_toNat hw (by decide)).1 h
  simp at this

theorem slt_zero_ofNat (n : Nat) (hn : n < 2 ^ 31) : IntOp.cmpi .slt (BitVec.ofNat 32 n) 0#32 = 0#1 :=
  slt_zero_of_small _ (by rw [BitVec.toNat_ofNat]; omega)

variable {F : FTy → Type} [FloatOps F]

/-- The first start component of the two gathers: the batch column itself. -/
theorem v13_at (k : Fin 1024) (b : Fin 4096) (c : Fin 1) :
    val_main_v13 (F := F) (ix3 k b c) = BitVec.ofNat 32 b.val := by
  rw [val_main_v13_apply, val_main_v12_apply, val_main_v6_apply, val_main_v3_apply, val_main_v1_apply, val_main_v0_apply,
    val_main_v2_apply, val_main_c_apply]
  show Scalar.select (IntOp.cmpi .slt (BitVec.ofNat 32 b.val) 0#32) _ _ = _
  rw [slt_zero_ofNat _ (by have := b.isLt; omega), select_zero]

/-- The second start component of a gather: the index word, left as it is when it is one of the ten classes. -/
theorem v14_at (i1 : (⟨S1024x4096, .i32⟩ : BufTy).Contents (Elt F)) (k : Fin 1024) (b : Fin 4096) (c : Fin 1)
    (h : (i1 (ix2 k b)).toNat < 10) :
    val_main_v14 (F := F) i1 (ix3 k b c) = i1 (ix2 k b) := by
  have e : idx_main_v14 (ix3 k b c) = ix2 k b := by
    funext a; match a with | ⟨0, _⟩ => rfl | ⟨1, _⟩ => rfl
  rw [val_main_v14_apply, e, val_main_v11_apply, val_main_v8_apply, val_main_v7_apply, val_main_c_1_apply,
    slt_zero_of_small _ (by omega), select_zero]

/-- The start indices of a gather, component by component: the batch column, then the index word. -/
theorem v15_at0 (i1 : (⟨S1024x4096, .i32⟩ : BufTy).Contents (Elt F)) (k : Fin 1024) (b : Fin 4096) :
    val_main_v15 (F := F) i1 (ix3 k b (0 : Fin 2)) = BitVec.ofNat 32 b.val := by
  unfold val_main_v15
  refine (concatenate_pair_apply_left (t := S1024x4096x2) (s₁ := S1024x4096x1) (s₂ := S1024x4096x1) (2 : Fin 3) _ _ _
    (ix3 k b (0 : Fin 2)) rfl (ix3 k b (0 : Fin 1))
    (fun a => match a with | ⟨0, _⟩ => rfl | ⟨1, _⟩ => rfl | ⟨2, _⟩ => rfl)).trans ?_
  exact v13_at k b 0

theorem v15_at1 (i1 : (⟨S1024x4096, .i32⟩ : BufTy).Contents (Elt F)) (k : Fin 1024) (b : Fin 4096)
    (h : (i1 (ix2 k b)).toNat < 10) :
    val_main_v15 (F := F) i1 (ix3 k b (1 : Fin 2)) = i1 (ix2 k b) := by
  unfold val_main_v15
  refine (concatenate_pair_apply_right (t := S1024x4096x2) (s₁ := S1024x4096x1) (s₂ := S1024x4096x1) (2 : Fin 3) _ _ _
    (ix3 k b (1 : Fin 2)) rfl rfl (ix3 k b (0 : Fin 1))
    (fun a ha => match a, ha with | ⟨0, _⟩, _ => rfl | ⟨1, _⟩, _ => rfl | ⟨2, _⟩, ha => absurd rfl ha) rfl).trans ?_
  exact v14_at i1 k b 0 h

/-- The start of the gathered slice on the table's row axis, at result position (k, b), when the start index's
    first component there is the word of b: b itself (not negative; b ≤ 4095, so the clamp leaves it). -/
theorem gather_start0 (idx : IVec S1024x4096x2 32) (k : Fin 1024) (b : Fin 4096)
    (h0 : idx (ix3 k b (0 : Fin 2)) = BitVec.ofNat 32 b.val) :
    (gather_S4096x10_S1024x4096x2_S1024x4096_n_01_n_n_01_2_11).start (ix2 k b) idx (0 : Fin 2) = b.val := by
  have hm : (0 : Fin 2) ∈ (gather_S4096x10_S1024x4096x2_S1024x4096_n_01_n_n_01_2_11).startIndexMap := by
    simp [gather_S4096x10_S1024x4096x2_S1024x4096_n_01_n_n_01_2_11]
  have hsi : ∀ hlt, (gather_S4096x10_S1024x4096x2_S1024x4096_n_01_n_n_01_2_11).siIdx (ix2 k b)
      ⟨List.idxOf (0 : Fin 2) (gather_S4096x10_S1024x4096x2_S1024x4096_n_01_n_n_01_2_11).startIndexMap, hlt⟩
      = ix3 k b (0 : Fin 2) := fun hlt => by
    funext c; refine Fin.ext ?_
    match c with
    | ⟨0, _⟩ => rfl
    | ⟨1, _⟩ => rfl
    | ⟨2, _⟩ => rfl
  unfold GatherDims.start
  rw [dif_pos hm, hsi, h0, toInt_ofNat_small _ (by have := b.isLt; omega)]
  show min (b.val : Int).toNat (4096 - 1) = b.val
  have := b.isLt; omega

/-- The start on the table's class axis, when the start index's second component there is a word w naming one of
    the ten classes: w (not negative; at most 9, so the clamp leaves it). -/
theorem gather_start1 (idx : IVec S1024x4096x2 32) (k : Fin 1024) (b : Fin 4096) (w : BitVec 32)
    (h1 : idx (ix3 k b (1 : Fin 2)) = w) (hw : w.toNat < 10) :
    (gather_S4096x10_S1024x4096x2_S1024x4096_n_01_n_n_01_2_11).start (ix2 k b) idx (1 : Fin 2) = w.toNat := by
  have hm : (1 : Fin 2) ∈ (gather_S4096x10_S1024x4096x2_S1024x4096_n_01_n_n_01_2_11).startIndexMap := by
    simp [gather_S4096x10_S1024x4096x2_S1024x4096_n_01_n_n_01_2_11]
  have hsi : ∀ hlt, (gather_S4096x10_S1024x4096x2_S1024x4096_n_01_n_n_01_2_11).siIdx (ix2 k b)
      ⟨List.idxOf (1 : Fin 2) (gather_S4096x10_S1024x4096x2_S1024x4096_n_01_n_n_01_2_11).startIndexMap, hlt⟩
      = ix3 k b (1 : Fin 2) := fun hlt => by
    funext c; refine Fin.ext ?_
    match c with
    | ⟨0, _⟩ => rfl
    | ⟨1, _⟩ => rfl
    | ⟨2, _⟩ => rfl
  unfold GatherDims.start
  rw [dif_pos hm, hsi, h1, toInt_eq_toNat_of_lt (by omega)]
  show min (w.toNat : Int).toNat (10 - 1) = w.toNat
  omega

/-- The gather with both operand axes collapsed, read at (k, b), when the start index there is the pair
    (b, w) with w one of the ten classes: it reads row b of the table at class w. -/
theorem gather_read {α : Type} (x : S4096x10.Idx → α) (idx : IVec S1024x4096x2 32) (k : Fin 1024) (b : Fin 4096)
    (w : BitVec 32) (h0 : idx (ix3 k b (0 : Fin 2)) = BitVec.ofNat 32 b.val) (h1 : idx (ix3 k b (1 : Fin 2)) = w)
    (hw : w.toNat < 10) :
    Host.gather gather_S4096x10_S1024x4096x2_S1024x4096_n_01_n_n_01_2_11 x idx (ix2 k b) = x (ix2 b ⟨w.toNat, hw⟩) := by
  unfold Host.gather
  congr 1
  funext a
  refine Fin.ext ?_
  have hb : a ∉ (gather_S4096x10_S1024x4096x2_S1024x4096_n_01_n_n_01_2_11).operandBatchingDims := List.not_mem_nil
  have hk : a ∉ (gather_S4096x10_S1024x4096x2_S1024x4096_n_01_n_n_01_2_11).sKept := fun h => by
    have := ((GatherDims.mem_sKept _ a).mp h).1
    revert this
    match a with
    | ⟨0, _⟩ => simp [gather_S4096x10_S1024x4096x2_S1024x4096_n_01_n_n_01_2_11]
    | ⟨1, _⟩ => simp [gather_S4096x10_S1024x4096x2_S1024x4096_n_01_n_n_01_2_11]
  show (gather_S4096x10_S1024x4096x2_S1024x4096_n_01_n_n_01_2_11).start (ix2 k b) idx a
    + (gather_S4096x10_S1024x4096x2_S1024x4096_n_01_n_n_01_2_11).batchCoord (ix2 k b) a
    + (gather_S4096x10_S1024x4096x2_S1024x4096_n_01_n_n_01_2_11).offCoord (ix2 k b) a = _
  rw [GatherDims.batchCoord_eq_zero _ _ _ hb, GatherDims.offCoord_eq_zero _ _ _ hk, Nat.add_zero]
  match a with
  | ⟨0, _⟩ => exact gather_start0 idx k b h0
  | ⟨1, _⟩ => exact gather_start1 idx k b w h1 hw

/-- The start of the scattered window on the result's row axis, for update (b, k), when the scatter index's first
    component there is the word of b: b (read signed, not clamped). -/
theorem scatter_start0 (idx : IVec S4096x1024x2 32) (b : Fin 4096) (k : Fin 1024)
    (h0 : idx (ix3 b k (0 : Fin 2)) = BitVec.ofNat 32 b.val) :
    (scatter_S4096x19_S4096x1024x2_S4096x1024_n_01_01_2).start (ix2 b k) idx (0 : Fin 2) = (b.val : Int) := by
  have hm : (0 : Fin 2) ∈ (scatter_S4096x19_S4096x1024x2_S4096x1024_n_01_01_2).scatterDimsToOperandDims := by
    simp [scatter_S4096x19_S4096x1024x2_S4096x1024_n_01_01_2]
  have hsi : ∀ hlt, (scatter_S4096x19_S4096x1024x2_S4096x1024_n_01_01_2).siIdx (ix2 b k)
      ⟨List.idxOf (0 : Fin 2) (scatter_S4096x19_S4096x1024x2_S4096x1024_n_01_01_2).scatterDimsToOperandDims, hlt⟩ = ix3 b k (0 : Fin 2) := fun hlt => by
    funext c; refine Fin.ext ?_
    match c with
    | ⟨0, _⟩ => rfl
    | ⟨1, _⟩ => rfl
    | ⟨2, _⟩ => rfl
  unfold ScatterDims.start
  rw [dif_pos hm, hsi, h0, toInt_ofNat_small _ (by have := b.isLt; omega)]

/-- The start on the result's class axis, when the second component is a word s below 2³¹: its value. -/
theorem scatter_start1 (idx : IVec S4096x1024x2 32) (b : Fin 4096) (k : Fin 1024) (s : BitVec 32)
    (h1 : idx (ix3 b k (1 : Fin 2)) = s) (hs : s.toNat < 2 ^ 31) :
    (scatter_S4096x19_S4096x1024x2_S4096x1024_n_01_01_2).start (ix2 b k) idx (1 : Fin 2) = (s.toNat : Int) := by
  have hm : (1 : Fin 2) ∈ (scatter_S4096x19_S4096x1024x2_S4096x1024_n_01_01_2).scatterDimsToOperandDims := by
    simp [scatter_S4096x19_S4096x1024x2_S4096x1024_n_01_01_2]
  have hsi : ∀ hlt, (scatter_S4096x19_S4096x1024x2_S4096x1024_n_01_01_2).siIdx (ix2 b k)
      ⟨List.idxOf (1 : Fin 2) (scatter_S4096x19_S4096x1024x2_S4096x1024_n_01_01_2).scatterDimsToOperandDims, hlt⟩ = ix3 b k (1 : Fin 2) := fun hlt => by
    funext c; refine Fin.ext ?_
    match c with
    | ⟨0, _⟩ => rfl
    | ⟨1, _⟩ => rfl
    | ⟨2, _⟩ => rfl
  unfold ScatterDims.start
  rw [dif_pos hm, hsi, h1, toInt_eq_toNat_of_lt hs]

/-- Both result axes are inserted window axes: an update has no window coordinate. -/
theorem scatter_window (j : S4096x1024.Idx) (a : Fin 2) : (scatter_S4096x19_S4096x1024x2_S4096x1024_n_01_01_2).window j a = 0 := by
  unfold ScatterDims.window
  rw [dif_neg]
  match a with
  | ⟨0, _⟩ => simp [ScatterDims.sKept, Shape.kept, scatter_S4096x19_S4096x1024x2_S4096x1024_n_01_01_2]
  | ⟨1, _⟩ => simp [ScatterDims.sKept, Shape.kept, scatter_S4096x19_S4096x1024x2_S4096x1024_n_01_01_2]

/-- Where update (b, k) lands, when the scatter index there is the pair (b, s) with s one of the nineteen output
    classes: on (b, s). -/
theorem scatter_land (idx : IVec S4096x1024x2 32) (b : Fin 4096) (k : Fin 1024) (s : BitVec 32)
    (h0 : idx (ix3 b k (0 : Fin 2)) = BitVec.ofNat 32 b.val) (h1 : idx (ix3 b k (1 : Fin 2)) = s) (hs : s.toNat < 19) :
    (scatter_S4096x19_S4096x1024x2_S4096x1024_n_01_01_2).resultIdx? (ix2 b k) idx = some (ix2 b ⟨s.toNat, hs⟩) := by
  have e0 := scatter_start0 idx b k h0
  have e1 := scatter_start1 idx b k s h1 (by omega)
  have hall : ∀ a, 0 ≤ (scatter_S4096x19_S4096x1024x2_S4096x1024_n_01_01_2).start (ix2 b k) idx a + (scatter_S4096x19_S4096x1024x2_S4096x1024_n_01_01_2).window (ix2 b k) a
      ∧ (scatter_S4096x19_S4096x1024x2_S4096x1024_n_01_01_2).start (ix2 b k) idx a + (scatter_S4096x19_S4096x1024x2_S4096x1024_n_01_01_2).window (ix2 b k) a < S4096x19.size a := by
    intro a
    rw [scatter_window]
    match a with
    | ⟨0, _⟩ =>
      have e : (scatter_S4096x19_S4096x1024x2_S4096x1024_n_01_01_2).start (ix2 b k) idx ⟨0, by decide⟩ = (b.val : Int) := e0
      rw [e]
      show 0 ≤ (b.val : Int) + ((0 : Nat) : Int) ∧ (b.val : Int) + ((0 : Nat) : Int) < ((4096 : Nat) : Int)
      have := b.isLt; omega
    | ⟨1, _⟩ =>
      have e : (scatter_S4096x19_S4096x1024x2_S4096x1024_n_01_01_2).start (ix2 b k) idx ⟨1, by decide⟩ = (s.toNat : Int) := e1
      rw [e]
      show 0 ≤ (s.toNat : Int) + ((0 : Nat) : Int) ∧ (s.toNat : Int) + ((0 : Nat) : Int) < ((19 : Nat) : Int)
      omega
  unfold ScatterDims.resultIdx?
  rw [dif_pos hall]
  congr 1
  funext a
  refine Fin.ext ?_
  match a with
  | ⟨0, _⟩ =>
    show ((scatter_S4096x19_S4096x1024x2_S4096x1024_n_01_01_2).start (ix2 b k) idx (0 : Fin 2) + (scatter_S4096x19_S4096x1024x2_S4096x1024_n_01_01_2).window (ix2 b k) (0 : Fin 2)).toNat = b.val
    rw [e0, scatter_window]; omega
  | ⟨1, _⟩ =>
    show ((scatter_S4096x19_S4096x1024x2_S4096x1024_n_01_01_2).start (ix2 b k) idx (1 : Fin 2) + (scatter_S4096x19_S4096x1024x2_S4096x1024_n_01_01_2).window (ix2 b k) (1 : Fin 2)).toNat = s.toNat
    rw [e1, scatter_window]; omega

/-- The second gather's start components, as the first's. -/
theorem v30_at (k : Fin 1024) (b : Fin 4096) (c : Fin 1) :
    val_main_v30 (F := F) (ix3 k b c) = BitVec.ofNat 32 b.val := by
  rw [val_main_v30_apply, val_main_v29_apply, val_main_v23_apply, val_main_v20_apply, val_main_v18_apply, val_main_v0_apply,
    val_main_v19_apply, val_main_c_3_apply]
  show Scalar.select (IntOp.cmpi .slt (BitVec.ofNat 32 b.val) 0#32) _ _ = _
  rw [slt_zero_ofNat _ (by have := b.isLt; omega), select_zero]

theorem v31_at (i2 : (⟨S1024x4096, .i32⟩ : BufTy).Contents (Elt F)) (k : Fin 1024) (b : Fin 4096) (c : Fin 1)
    (h : (i2 (ix2 k b)).toNat < 10) :
    val_main_v31 (F := F) i2 (ix3 k b c) = i2 (ix2 k b) := by
  have e : idx_main_v31 (ix3 k b c) = ix2 k b := by
    funext a; match a with | ⟨0, _⟩ => rfl | ⟨1, _⟩ => rfl
  rw [val_main_v31_apply, e, val_main_v28_apply, val_main_v25_apply, val_main_v24_apply, val_main_c_5_apply,
    slt_zero_of_small _ (by omega), select_zero]

theorem v32_at0 (i2 : (⟨S1024x4096, .i32⟩ : BufTy).Contents (Elt F)) (k : Fin 1024) (b : Fin 4096) :
    val_main_v32 (F := F) i2 (ix3 k b (0 : Fin 2)) = BitVec.ofNat 32 b.val := by
  unfold val_main_v32
  refine (concatenate_pair_apply_left (t := S1024x4096x2) (s₁ := S1024x4096x1) (s₂ := S1024x4096x1) (2 : Fin 3) _ _ _
    (ix3 k b (0 : Fin 2)) rfl (ix3 k b (0 : Fin 1))
    (fun a => match a with | ⟨0, _⟩ => rfl | ⟨1, _⟩ => rfl | ⟨2, _⟩ => rfl)).trans ?_
  exact v30_at k b 0

theorem v32_at1 (i2 : (⟨S1024x4096, .i32⟩ : BufTy).Contents (Elt F)) (k : Fin 1024) (b : Fin 4096)
    (h : (i2 (ix2 k b)).toNat < 10) :
    val_main_v32 (F := F) i2 (ix3 k b (1 : Fin 2)) = i2 (ix2 k b) := by
  unfold val_main_v32
  refine (concatenate_pair_apply_right (t := S1024x4096x2) (s₁ := S1024x4096x1) (s₂ := S1024x4096x1) (2 : Fin 3) _ _ _
    (ix3 k b (1 : Fin 2)) rfl rfl (ix3 k b (0 : Fin 1))
    (fun a ha => match a, ha with | ⟨0, _⟩, _ => rfl | ⟨1, _⟩, _ => rfl | ⟨2, _⟩, ha => absurd rfl ha) rfl).trans ?_
  exact v31_at i2 k b 0 h

/-- The two gathers read at (k, b): row b of each table at the class its index word names. -/
theorem v16_at (x1 : (⟨S4096x10, .f32⟩ : BufTy).Contents (Elt F)) (i1 : (⟨S1024x4096, .i32⟩ : BufTy).Contents (Elt F))
    (k : Fin 1024) (b : Fin 4096) (h : (i1 (ix2 k b)).toNat < 10) :
    val_main_v16 (F := F) x1 i1 (ix2 k b) = x1 (ix2 b ⟨(i1 (ix2 k b)).toNat, h⟩) :=
  gather_read x1 (val_main_v15 (F := F) i1) k b _ (v15_at0 i1 k b) (v15_at1 i1 k b h) h

theorem v33_at (x2 : (⟨S4096x10, .f32⟩ : BufTy).Contents (Elt F)) (i2 : (⟨S1024x4096, .i32⟩ : BufTy).Contents (Elt F))
    (k : Fin 1024) (b : Fin 4096) (h : (i2 (ix2 k b)).toNat < 10) :
    val_main_v33 (F := F) x2 i2 (ix2 k b) = x2 (ix2 b ⟨(i2 (ix2 k b)).toNat, h⟩) :=
  gather_read x2 (val_main_v32 (F := F) i2) k b _ (v32_at0 i2 k b) (v32_at1 i2 k b h) h

/-- The scatter indices, component by component: the batch column, then the sum of the two index words. -/
theorem v51_at (b : Fin 4096) (k : Fin 1024) (c : Fin 1) :
    val_main_v51 (F := F) (ix3 b k c) = BitVec.ofNat 32 b.val := by
  rw [val_main_v51_apply, val_main_v50_apply, val_main_v44_apply, val_main_v41_apply, val_main_v39_apply, val_main_v0_apply,
    val_main_v40_apply, val_main_c_7_apply]
  show Scalar.select (IntOp.cmpi .slt (BitVec.ofNat 32 b.val) 0#32) _ _ = _
  rw [slt_zero_ofNat _ (by have := b.isLt; omega), select_zero]

theorem v52_at (i1 i2 : (⟨S1024x4096, .i32⟩ : BufTy).Contents (Elt F)) (b : Fin 4096) (k : Fin 1024) (c : Fin 1)
    (h1 : (i1 (ix2 k b)).toNat < 10) (h2 : (i2 (ix2 k b)).toNat < 10) :
    val_main_v52 (F := F) i1 i2 (ix3 b k c) = i1 (ix2 k b) + i2 (ix2 k b) := by
  have e : idx_main_v52 (ix3 b k c) = ix2 b k := by
    funext a; match a with | ⟨0, _⟩ => rfl | ⟨1, _⟩ => rfl
  have e' : idx_main_v37 (ix2 b k) = ix2 k b := by
    funext a; match a with | ⟨0, _⟩ => rfl | ⟨1, _⟩ => rfl
  have hv : val_main_v37 (F := F) i1 i2 (ix2 b k) = i1 (ix2 k b) + i2 (ix2 k b) := by
    rw [val_main_v37_apply, e', val_main_v36_apply]; rfl
  have hlt : (i1 (ix2 k b) + i2 (ix2 k b)).toNat < 2 ^ 31 := by
    rw [BitVec.toNat_add]; omega
  rw [val_main_v52_apply, e, val_main_v49_apply, val_main_v46_apply, hv, val_main_v45_apply, val_main_c_9_apply,
    slt_zero_of_small _ hlt, select_zero]

theorem v53_at0 (i1 i2 : (⟨S1024x4096, .i32⟩ : BufTy).Contents (Elt F)) (b : Fin 4096) (k : Fin 1024) :
    val_main_v53 (F := F) i1 i2 (ix3 b k (0 : Fin 2)) = BitVec.ofNat 32 b.val := by
  unfold val_main_v53
  refine (concatenate_pair_apply_left (t := S4096x1024x2) (s₁ := S4096x1024x1) (s₂ := S4096x1024x1) (2 : Fin 3) _ _ _
    (ix3 b k (0 : Fin 2)) rfl (ix3 b k (0 : Fin 1))
    (fun a => match a with | ⟨0, _⟩ => rfl | ⟨1, _⟩ => rfl | ⟨2, _⟩ => rfl)).trans ?_
  exact v51_at b k 0

theorem v53_at1 (i1 i2 : (⟨S1024x4096, .i32⟩ : BufTy).Contents (Elt F)) (b : Fin 4096) (k : Fin 1024)
    (h1 : (i1 (ix2 k b)).toNat < 10) (h2 : (i2 (ix2 k b)).toNat < 10) :
    val_main_v53 (F := F) i1 i2 (ix3 b k (1 : Fin 2)) = i1 (ix2 k b) + i2 (ix2 k b) := by
  unfold val_main_v53
  refine (concatenate_pair_apply_right (t := S4096x1024x2) (s₁ := S4096x1024x1) (s₂ := S4096x1024x1) (2 : Fin 3) _ _ _
    (ix3 b k (1 : Fin 2)) rfl rfl (ix3 b k (0 : Fin 1))
    (fun a ha => match a, ha with | ⟨0, _⟩, _ => rfl | ⟨1, _⟩, _ => rfl | ⟨2, _⟩, ha => absurd rfl ha) rfl).trans ?_
  exact v52_at i1 i2 b k 0 h1 h2

/-- The sum of two words below ten does not wrap and is one of the nineteen output classes. -/
theorem sum_lt19 (u v : BitVec 32) (hu : u.toNat < 10) (hv : v.toNat < 10) : (u + v).toNat < 19 := by
  rw [BitVec.toNat_add]; omega

/-- An update of the scatter: the product of the two selected class probabilities. -/
theorem v35_at (x1 x2 : (⟨S4096x10, .f32⟩ : BufTy).Contents (Elt Ideal)) (i1 i2 : (⟨S1024x4096, .i32⟩ : BufTy).Contents (Elt Ideal))
    (b : Fin 4096) (k : Fin 1024) (h1 : (i1 (ix2 k b)).toNat < 10) (h2 : (i2 (ix2 k b)).toNat < 10) :
    val_main_v35 (F := Ideal) x1 x2 i1 i2 (ix2 b k) = pick x1 b (i1 (ix2 k b)) * pick x2 b (i2 (ix2 k b)) := by
  have e17 : idx_main_v17 (ix2 b k) = ix2 k b := by
    funext a; match a with | ⟨0, _⟩ => rfl | ⟨1, _⟩ => rfl
  have e34 : idx_main_v34 (ix2 b k) = ix2 k b := by
    funext a; match a with | ⟨0, _⟩ => rfl | ⟨1, _⟩ => rfl
  rw [val_main_v35_apply, val_main_v17_apply, val_main_v34_apply, e17, e34, v16_at x1 i1 k b h1, v33_at x2 i2 k b h2]
  unfold pick
  rw [dif_pos h1, dif_pos h2]
  rfl

end Readings

/-- The scatter-add read at (b, m): the zero it starts from, plus the update of every sample of column b whose two
    index words sum to m (an update of another column, or with another sum, lands elsewhere). -/
theorem v54_at (x1 x2 : (⟨S4096x10, .f32⟩ : BufTy).Contents (Elt Ideal)) (i1 i2 : (⟨S1024x4096, .i32⟩ : BufTy).Contents (Elt Ideal))
    (h1 : ∀ j, (i1 j).toNat < 10) (h2 : ∀ j, (i2 j).toNat < 10) (b : Fin 4096) (m : Fin 19) :
    val_main_v54 (F := Ideal) x1 x2 i1 i2 (ix2 b m) = acc x1 x2 i1 i2 b m := by
  have hland : ∀ (a : Fin 4096) (k : Fin 1024), (scatter_S4096x19_S4096x1024x2_S4096x1024_n_01_01_2).resultIdx? (ix2 a k) (val_main_v53 (F := Ideal) i1 i2)
      = some (ix2 a ⟨(i1 (ix2 k a) + i2 (ix2 k a)).toNat, sum_lt19 _ _ (h1 _) (h2 _)⟩) := fun a k =>
    scatter_land _ a k _ (v53_at0 i1 i2 a k) (v53_at1 i1 i2 a k (h1 _) (h2 _)) _
  have key : ∀ (a : Fin 4096) (k : Fin 1024),
      (if (scatter_S4096x19_S4096x1024x2_S4096x1024_n_01_01_2).resultIdx? (ix2 a k) (val_main_v53 (F := Ideal) i1 i2) = some (ix2 b m)
        then val_main_v35 (F := Ideal) x1 x2 i1 i2 (ix2 a k) else 0)
      = if a = b then term x1 x2 i1 i2 b m k else 0 := by
    intro a k
    rw [hland a k]
    by_cases hab : a = b
    · subst hab
      rw [if_pos rfl]
      unfold term
      by_cases hs : i1 (ix2 k a) + i2 (ix2 k a) = BitVec.ofNat 32 m.val
      · have hm : (⟨(i1 (ix2 k a) + i2 (ix2 k a)).toNat, sum_lt19 _ _ (h1 _) (h2 _)⟩ : Fin 19) = m := by
          refine Fin.ext ?_
          show (i1 (ix2 k a) + i2 (ix2 k a)).toNat = m.val
          rw [hs, BitVec.toNat_ofNat]; exact Nat.mod_eq_of_lt (by have := m.isLt; omega)
        rw [if_pos hs, if_pos (by rw [hm]), v35_at x1 x2 i1 i2 a k (h1 _) (h2 _)]
      · rw [if_neg hs, if_neg]
        intro h
        apply hs
        have hv : (i1 (ix2 k a) + i2 (ix2 k a)).toNat = m.val := congrArg Fin.val (congrFun (Option.some.inj h) 1)
        apply BitVec.eq_of_toNat_eq
        rw [BitVec.toNat_ofNat, hv]; exact (Nat.mod_eq_of_lt (by have := m.isLt; omega)).symm
    · rw [if_neg hab, if_neg]
      intro h
      exact hab (congrFun (Option.some.inj h) 0)
  unfold val_main_v54 Host.scatterAdd acc
  rw [Ideal.hostScatterAdd_def]
  unfold Ideal.hostScatterAdd
  rw [val_main_v38_apply, val_main_cst_apply, Ideal.ofBits_def, Ideal.ofBits_zero_f32, zero_add, Finset.sum_filter, sum_idx2,
    Finset.sum_eq_single b (fun a _ hab => Finset.sum_eq_zero fun k _ => by rw [key, if_neg hab])
      (fun h => absurd (Finset.mem_univ b) h)]
  exact Finset.sum_congr rfl fun k _ => by rw [key, if_pos rfl]

/-- With every index word one of the ten classes, the reference's result is the function `G` of its arguments. -/
theorem val_eq_G (x1 x2 : (⟨S4096x10, .f32⟩ : BufTy).Contents (Elt Ideal))
    (i1 i2 : (⟨S1024x4096, .i32⟩ : BufTy).Contents (Elt Ideal))
    (h1 : ∀ j, (i1 j).toNat < 10) (h2 : ∀ j, (i2 j).toNat < 10) :
    val_main_v59 (F := Ideal) x1 x2 i1 i2 = Cert.Ised.G x1 x2 i1 i2 := by
  funext j
  obtain ⟨b, m, rfl⟩ : ∃ b m, j = ix2 b m := ⟨j 0, j 1, eq_ix2 j⟩
  have e : ∀ k : Fin 19, idx_main_call0_v1 (idx_main_call0_v2 (idx_main_v58 (ix2 b m))) k = ix2 b k := fun k => by
    funext a; match a with | ⟨0, _⟩ => rfl | ⟨1, _⟩ => rfl
  rw [val_main_v59_apply, val_main_v58_apply, val_main_v57_apply, val_main_v55_apply, val_main_call0_v2_apply,
    val_main_call0_v1_apply, val_main_v56_apply, val_main_cst_11_apply, val_main_call0_cst_apply, v54_at x1 x2 i1 i2 h1 h2]
  simp only [e, val_main_call0_v0_apply, v54_at x1 x2 i1 i2 h1 h2, Ideal.hostDivf_def, Ideal.maximumf_def,
    Ideal.hostUnary_sqrt_def, Ideal.mulf_def, Ideal.ofBits_def, Ideal.ofBits_zero_f32, zero_add]
  rfl

end Cert.Ised.Ref

end
-- ==== Proof.PreRange.lean ====
import proofs.«403822_j73005854097950_3_alg».proof.Pre_finite_inputs
import proofs.«403822_j73005854097950_3_alg».proof.Proof.Gen.Pre_finite_inputs
import Idealize.ShloMosaic.Lib.ReduceAll
import Idealize.ShloMosaic.Lib.StableHlo.Predicate

noncomputable section

namespace Cert.Ised.Pre

open Idealize.ShloMosaic Cert.Pre_finite_inputs

/-- A 32-bit word that, read signed, is at least 0 and below 10 is below 10 read unsigned: its top bit is
    clear, so the two readings agree. -/
theorem toNat_lt_ten_of_signed {a : BitVec 32} (h0 : (0#32 : BitVec 32).toInt ≤ a.toInt)
    (h1 : a.toInt < (10#32 : BitVec 32).toInt) : a.toNat < 10 := by
  have e0 : (0#32 : BitVec 32).toInt = 0 := by decide
  have e10 : (10#32 : BitVec 32).toInt = 10 := by decide
  rw [e0] at h0
  rw [e10] at h1
  have hpos : 2 * a.toNat < 2 ^ 32 := BitVec.toInt_pos_iff.1 h0
  rw [BitVec.toInt_eq_toNat_of_lt hpos] at h1
  omega

/-- One element of the range mask: the conjunction of "at least 0" and "below 10", both signed, being set
    bounds the word. -/
theorem toNat_lt_ten_of_mask {a : BitVec 32}
    (h : IntOp.andi (IntOp.cmpi .sge a 0#32) (IntOp.cmpi .slt a 10#32) = 1#1) : a.toNat < 10 := by
  obtain ⟨hge, hlt⟩ := IntOp.andi_eq_one.1 h
  exact toNat_lt_ten_of_signed (IntOp.cmpi_sge.1 hge) (IntOp.cmpi_slt.1 hlt)

/-- The result shape of a reduction over all axes has exactly one index. -/
instance subsingleton_scalar_idx : Subsingleton S_.Idx := ⟨fun a b => funext fun d => d.elim0⟩

/-- The precondition bounds every index word: each is one of the ten classes 0..9. -/
theorem range_of_pre {F : FTy → Type} [FloatOps F] (x1 x2 : FVec F S4096x10 .f32) (i1 i2 : IVec S1024x4096 32)
    (h : Cert.Pre_finite_inputs.fn (F := F) x1 x2 i1 i2 = fun _ => 1#1) :
    (∀ j, (i1 j).toNat < 10) ∧ (∀ j, (i2 j).toNat < 10) := by
  -- the predicate at its one index: a conjunction of four whole-array conjunctions
  have h0 := congrFun h (fun d => d.elim0)
  dsimp only [Cert.Pre_finite_inputs.fn, Cert.Pre_finite_inputs.fn_part1] at h0
  -- split off the two float conjuncts; what is left is the two index-range conjunctions
  obtain ⟨h15, h21⟩ := IntOp.andi_eq_one.1 h0
  obtain ⟨h8, h14⟩ := IntOp.andi_eq_one.1 h15
  refine ⟨fun j => ?_, fun j => ?_⟩
  · -- a conjunction over the whole array that is set has every element set; read that element at j
    exact toNat_lt_ten_of_mask (Host.reduce_andi_all _ _ _ _ _ h14 j)
  · exact toNat_lt_ten_of_mask (Host.reduce_andi_all _ _ _ _ _ h21 j)

end Cert.Ised.Pre

end
-- ==== Proof.lean ====
/-
  The certificate of the sampled-indices kernel against its reference.

  For every batch column b, both programs add, for each of the 1024 samples k, the product of the two class
  probabilities the sample's two index words select (x1[b, i1[k,b]] · x2[b, i2[k,b]]) to the output class
  i1[k,b] + i2[k,b], and divide the row of nineteen accumulated values by the larger of its Euclidean norm and a
  fixed small constant: the function `Cert.Ised.G` of the four argument arrays.

  The kernel selects a class probability by a chain of ten compare-and-selects (an index word outside 0..9 selects
  zero) and accumulates over sixteen chunks of sixty-four samples, per block of 512 batch columns; the reference
  gathers (clamping an out-of-range index) and scatter-adds.  The two agree when every index word is one of the ten
  classes, which the precondition states; over the extended reals the order of the additions does not matter.
  The three frames are the generated ones; nothing was rewritten by the idealization.
-/
import proofs.«403822_j73005854097950_3_alg».proof.Defs
import proofs.«403822_j73005854097950_3_alg».proof.Proof.Gen.Kernel
import proofs.«403822_j73005854097950_3_alg».proof.Proof.Gen.Kernel.Frame
import proofs.«403822_j73005854097950_3_alg».proof.Proof.Gen.KernelIdeal
import proofs.«403822_j73005854097950_3_alg».proof.Proof.Gen.KernelIdeal.Frame
import proofs.«403822_j73005854097950_3_alg».proof.Proof.Gen.ReferenceIdeal
import proofs.«403822_j73005854097950_3_alg».proof.Proof.Gen.ReferenceIdeal.Run
import proofs.«403822_j73005854097950_3_alg».proof.Proof.Gen.ReferenceIdeal.Read
import proofs.«403822_j73005854097950_3_alg».proof.Proof.Gen.Pre_finite_inputs
import proofs.«403822_j73005854097950_3_alg».proof.Proof.BodyValue
import proofs.«403822_j73005854097950_3_alg».proof.Proof.KernelRun
import proofs.«403822_j73005854097950_3_alg».proof.Proof.RefValue
import proofs.«403822_j73005854097950_3_alg».proof.Proof.PreRange
import Idealize.ShloMosaic.Adequacy
import Idealize.ShloMosaic.Init

noncomputable section

namespace Cert.Proof

open Idealize.ShloMosaic Idealize.SL.Sem

/-- The word-level kernel runs and leaves its arguments unchanged: the generated frame. -/
theorem frame_kernel : Cert.frame_Kernel := fun m ρ _ => Cert.Kernel.Gen.frame m ρ

/-- The idealized kernel runs and leaves its arguments unchanged: the generated frame. -/
theorem frame_kernelIdeal : Cert.frame_KernelIdeal := fun m ρ _ => Cert.KernelIdeal.Gen.frame m ρ

/-- The reference runs and leaves its arguments unchanged: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end at `G` of the argument arrays: the kernel always, the reference because the
    precondition puts every index word among the ten classes. -/
theorem algebraic : Cert.algebraic_KernelIdeal_ReferenceIdeal := by
  intro m ρ m' ρ' hpre hagree
  refine ⟨fun c => Cert.Ised.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.Ised.KernelRun.run_G Cert.Ised.Run.outsAt_eq m ρ, ?_⟩
  refine (θ_run Cert.ReferenceIdeal.defs _ _).mono (fun _ h c => ⟨(h c).1.trans ?_, (h c).2⟩)
    (Cert.ReferenceIdeal.Value.run (F := Ideal) m' ρ')
  obtain ⟨r1, r2⟩ := Cert.Ised.Pre.range_of_pre _ _ _ _ (hpre c)
  rw [Cert.ReferenceIdeal.Read.val_main_v59_eq, (hagree c).1, (hagree c).2.1, (hagree c).2.2.1, (hagree c).2.2.2]
  exact Cert.Ised.Ref.val_eq_G _ _ _ _ r1 r2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
